-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S768x768 : Shape := ⟨2, ![768, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  main_v23

def fn {F : FTy → Type} [FloatOps F] (main_arg0 : FVec F S2x2048x768 .f32) (main_arg1 : FVec F S768x768 .f32) (main_arg2 : FVec F S768x768 .f32) (main_arg3 : FVec F S768x768 .f32) (main_arg4 : FVec F S768x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S2x2048x768 : Shape := ⟨3, ![2, 2048, 768]⟩
abbrev S768x768 : Shape := ⟨2, ![768, 768]⟩
abbrev S2304x768 : Shape := ⟨2, ![2304, 768]⟩
abbrev S768x2304 : Shape := ⟨2, ![768, 2304]⟩
abbrev S2x2048x2304 : Shape := ⟨3, ![2, 2048, 2304]⟩
abbrev S1x512x768 : Shape := ⟨3, ![1, 512, 768]⟩
abbrev S1x512x2304 : Shape := ⟨3, ![1, 512, 2304]⟩
abbrev S512x768 : Shape := ⟨2, ![512, 768]⟩
abbrev S512x2304 : Shape := ⟨2, ![512, 2304]⟩
abbrev S1x2048x768 : Shape := ⟨3, ![1, 2048, 768]⟩
abbrev S512x1 : Shape := ⟨2, ![512, 1]⟩
abbrev S1x2048 : Shape := ⟨2, ![1, 2048]⟩
abbrev S512x2048 : Shape := ⟨2, ![512, 2048]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512 : Shape := ⟨1, ![512]⟩

abbrev nBuf : Space → Nat
  | .hbm => 12
  | .vmem => 12
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2304x768, .f32⟩
  | .hbm, ⟨6, _⟩ => ⟨S768x2304, .f32⟩
  | .hbm, ⟨7, _⟩ => ⟨S768x2304, .bf16⟩
  | .hbm, ⟨8, _⟩ => ⟨S768x768, .f32⟩
  | .hbm, ⟨9, _⟩ => ⟨S768x768, .bf16⟩
  | .hbm, ⟨10, _⟩ => ⟨S2x2048x2304, .bf16⟩
  | .hbm, ⟨11, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S768x2304, .bf16⟩
  | .local _ .vmem, ⟨3, _⟩ => ⟨S1x512x2304, .bf16⟩
  | .local _ .vmem, ⟨4, _⟩ => ⟨S1x512x2304, .bf16⟩
  | .local _ .vmem, ⟨5, _⟩ => ⟨S1x512x768, .bf16⟩
  | .local _ .vmem, ⟨6, _⟩ => ⟨S1x512x768, .bf16⟩
  | .local _ .vmem, ⟨7, _⟩ => ⟨S1x2048x768, .bf16⟩
  | .local _ .vmem, ⟨8, _⟩ => ⟨S1x2048x768, .bf16⟩
  | .local _ .vmem, ⟨9, _⟩ => ⟨S768x768, .bf16⟩
  | .local _ .vmem, ⟨10, _⟩ => ⟨S1x512x768, .f32⟩
  | .local _ .vmem, ⟨11, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  concatenates_S768x768_S768x768_S768x768_S2304x768_d0 : Shape.Concatenates [S768x768, S768x768, S768x768] S2304x768 0
  transposes_S2304x768_S768x2304_1_0 : S2304x768.Transposes [1, 0] S768x2304
  bitsLt_bf16_f32 : FTy.bits .bf16 < FTy.bits .f32
  transposes_S768x768_S768x768_1_0 : S768x768.Transposes [1, 0] S768x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  shapeCasts_S512x2304_S1x512x2304 : S512x2304.ShapeCasts S1x512x2304
  packedbf16_S1x512x2304_S1x512x2304_0_0_0 : (Rect.unit (s := S1x512x2304) ![0, 0, 0] S1x512x2304.size inb_S1x512x2304_S1x512x2304_0_0_0).PackedRows (EltTy.packing .bf16)
  iota_S512x1_d0_w32 : S512x1.Iotas .tc 32 [0]
  iota_S1x2048_d1_w32 : S1x2048.Iotas .tc 32 [1]
  broadcasts_S512x1_S512x2048 : S512x1.Broadcasts S512x2048
  broadcasts_S1x2048_S512x2048 : S1x2048.Broadcasts S512x2048
  inb_S1x512x768_S1x512x64_0_0_0 : ∀ a, (![0, 0, 0] : Fin 3 → Nat) a + S1x512x64.size a ≤ S1x512x768.size a
  h_S1x512x64 : 0 < S1x512x64.numel
  shapeCasts_S1x512x64_S512x64 : S1x512x64.ShapeCasts S512x64
  inb_S1x2048x768_S1x2048x64_0_0_0 : ∀ a, (![0, 0, 0] : Fin 3 → Nat) a + S1x2048x64.size a ≤ S1x2048x768.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x64 : S512x1.Broadcasts S512x64
  inb_S1x512x768_S1x512x64_0_0_64 : ∀ a, (![0, 0, 64] : Fin 3 → Nat) a + S1x512x64.size a ≤ S1x512x768.size a
  inb_S1x2048x768_S1x2048x64_0_0_64 : ∀ a, (![0, 0, 64] : Fin 3 → Nat) a + S1x2048x64.size a ≤ S1x2048x768.size a
  inb_S1x512x768_S1x512x64_0_0_128 : ∀ a, (![0, 0, 128] : Fin 3 → Nat) a + S1x512x64.size a ≤ S1x512x768.size a
  inb_S1x2048x768_S1x2048x64_0_0_128 : ∀ a, (![0, 0, 128] : Fin 3 → Nat) a + S1x2048x64.size a ≤ S1x2048x768.size a
  inb_S1x512x768_S1x512x64_0_0_192 : ∀ a, (![0, 0, 192] : Fin 3 → Nat) a + S1x512x64.size a ≤ S1x512x768.size a
  inb_S1x2048x768_S1x2048x64_0_0_192 : ∀ a, (![0, 0, 192] : Fin 3 → Nat) a + S1x2048x64.size a ≤ S1x2048x768.size a
  inb_S1x512x768_S1x512x64_0_0_256 : ∀ a, (![0, 0, 256] : Fin 3 → Nat) a + S1x512x64.size a ≤ S1x512x768.size a
  inb_S1x2048x768_S1x2048x64_0_0_256 : ∀ a, (![0, 0, 256] : Fin 3 → Nat) a + S1x2048x64.size a ≤ S1x2048x768.size a
  inb_S1x512x768_S1x512x64_0_0_320 : ∀ a, (![0, 0, 320] : Fin 3 → Nat) a + S1x512x64.size a ≤ S1x512x768.size a
  inb_S1x2048x768_S1x2048x64_0_0_320 : ∀ a, (![0, 0, 320] : Fin 3 → Nat) a + S1x2048x64.size a ≤ S1x2048x768.size a
  inb_S1x512x768_S1x512x64_0_0_384 : ∀ a, (![0, 0, 384] : Fin 3 → Nat) a + S1x512x64.size a ≤ S1x512x768.size a
  inb_S1x2048x768_S1x2048x64_0_0_384 : ∀ a, (![0, 0, 384] : Fin 3 → Nat) a + S1x2048x64.size a ≤ S1x2048x768.size a
  inb_S1x512x768_S1x512x64_0_0_448 : ∀ a, (![0, 0, 448] : Fin 3 → Nat) a + S1x512x64.size a ≤ S1x512x768.size a
  inb_S1x2048x768_S1x2048x64_0_0_448 : ∀ a, (![0, 0, 448] : Fin 3 → Nat) a + S1x2048x64.size a ≤ S1x2048x768.size a
  inb_S1x512x768_S1x512x64_0_0_512 : ∀ a, (![0, 0, 512] : Fin 3 → Nat) a + S1x512x64.size a ≤ S1x512x768.size a
  inb_S1x2048x768_S1x2048x64_0_0_512 : ∀ a, (![0, 0, 512] : Fin 3 → Nat) a + S1x2048x64.size a ≤ S1x2048x768.size a
  inb_S1x512x768_S1x512x64_0_0_576 : ∀ a, (![0, 0, 576] : Fin 3 → Nat) a + S1x512x64.size a ≤ S1x512x768.size a
  inb_S1x2048x768_S1x2048x64_0_0_576 : ∀ a, (![0, 0, 576] : Fin 3 → Nat) a + S1x2048x64.size a ≤ S1x2048x768.size a
  inb_S1x512x768_S1x512x64_0_0_640 : ∀ a, (![0, 0, 640] : Fin 3 → Nat) a + S1x512x64.size a ≤ S1x512x768.size a
  inb_S1x2048x768_S1x2048x64_0_0_640 : ∀ a, (![0, 0, 640] : Fin 3 → Nat) a + S1x2048x64.size a ≤ S1x2048x768.size a
  inb_S1x512x768_S1x512x64_0_0_704 : ∀ a, (![0, 0, 704] : Fin 3 → Nat) a + S1x512x64.size a ≤ S1x512x768.size a
  inb_S1x2048x768_S1x2048x64_0_0_704 : ∀ a, (![0, 0, 704] : Fin 3 → Nat) a + S1x2048x64.size a ≤ S1x2048x768.size a
  concatenates_S512x64_S512x64_S512x64_S512x64_S512x64_S512x64_S512x64_S512x64_S512x64_S512x64_S512x64_S512x64_S512x768_d1 : Shape.Concatenates [S512x64, S512x64, S512x64, S512x64, S512x64, S512x64, S512x64, S512x64, S512x64, S512x64, S512x64, S512x64] S512x768 1
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S512x768_S1x512x768 : S512x768.ShapeCasts S1x512x768
  dot_S512x768_S768x2304_S512x2304_1_0_0_1_n_n_wf : DotDims.WF S512x768 S768x2304 S512x2304 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S2x2048x768.size a
  hwx0_0 : ∀ i : grid0.Coords, EltTy.bits .f32 = 32 ∨ (Rect.block (s := S2x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2304.size a ≤ S2x2048x2304.size a
  hwx0_2 : ∀ i : grid0.Coords, EltTy.bits .bf16 = 32 ∨ (Rect.block (s := S2x2048x2304) S1x512x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S2x2048x2304.size a
  hwx1_0 : ∀ i : grid1.Coords, EltTy.bits .bf16 = 32 ∨ (Rect.block (s := S2x2048x2304) S1x512x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S2x2048x2304.size a
  hwx1_1 : ∀ i : grid1.Coords, EltTy.bits .bf16 = 32 ∨ (Rect.block (s := S2x2048x2304) S1x2048x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S2x2048x2304.size a
  hwx1_2 : ∀ i : grid1.Coords, EltTy.bits .bf16 = 32 ∨ (Rect.block (s := S2x2048x2304) S1x2048x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x768.size a ≤ S2x2048x768.size a
  hwx1_4 : ∀ i : grid1.Coords, EltTy.bits .f32 = 32 ∨ (Rect.block (s := S2x2048x768) S1x512x768.size (cc1_transform_4 i) (hinb1_4 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x768 : Shape := ⟨3, ![2, 2048, 768]⟩
abbrev S768x768 : Shape := ⟨2, ![768, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2048x2048 : Shape := ⟨2, ![2048, 2048]⟩
abbrev S2x12x2048 : Shape := ⟨3, ![2, 12, 2048]⟩
abbrev S2x12x2048x1 : Shape := ⟨4, ![2, 12, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2x2048x768, .f32⟩
  | .hbm, ⟨6, _⟩ => ⟨S2x2048x12x64, .f32⟩
  | .hbm, ⟨7, _⟩ => ⟨S2x12x2048x64, .f32⟩
  | .hbm, ⟨8, _⟩ => ⟨S2x2048x768, .f32⟩
  | .hbm, ⟨9, _⟩ => ⟨S2x2048x12x64, .f32⟩
  | .hbm, ⟨10, _⟩ => ⟨S2x12x2048x64, .f32⟩
  | .hbm, ⟨11, _⟩ => ⟨S2x2048x768, .f32⟩
  | .hbm, ⟨12, _⟩ => ⟨S2x2048x12x64, .f32⟩
  | .hbm, ⟨13, _⟩ => ⟨S2x12x2048x64, .f32⟩
  | .hbm, ⟨14, _⟩ => ⟨S2x12x2048x2048, .f32⟩
  | .hbm, ⟨15, _⟩ => ⟨S_, .f32⟩
  | .hbm, ⟨16, _⟩ => ⟨S_, .f32⟩
  | .hbm, ⟨17, _⟩ => ⟨S2x12x2048x2048, .f32⟩
  | .hbm, ⟨18, _⟩ => ⟨S2x12x2048x2048, .f32⟩
  | .hbm, ⟨19, _⟩ => ⟨S_, .i1⟩
  | .hbm, ⟨20, _⟩ => ⟨S2048x2048, .i1⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .i1⟩
  | .hbm, ⟨28, _⟩ => ⟨S2048x2048, .i1⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S2x12x2048x2048, .i1⟩
  | .hbm, ⟨33, _⟩ => ⟨S2x12x2048x2048, .f32⟩
  | .hbm, ⟨34, _⟩ => ⟨S2x12x2048x2048, .f32⟩
  | .hbm, ⟨35, _⟩ => ⟨S_, .f32⟩
  | .hbm, ⟨36, _⟩ => ⟨S2x12x2048, .f32⟩
  | .hbm, ⟨37, _⟩ => ⟨S_, .f32⟩
  | .hbm, ⟨38, _⟩ => ⟨S2x12x2048, .f32⟩
  | .hbm, ⟨39, _⟩ => ⟨S2x12x2048, .f32⟩
  | .hbm, ⟨40, _⟩ => ⟨S2x12x2048x1, .f32⟩
  | .hbm, ⟨41, _⟩ => ⟨S2x12x2048x2048, .f32⟩
  | .hbm, ⟨42, _⟩ => ⟨S2x12x2048x2048, .f32⟩
  | .hbm, ⟨43, _⟩ => ⟨S2x12x2048x2048, .f32⟩
  | .hbm, ⟨44, _⟩ => ⟨S_, .f32⟩
  | .hbm, ⟨45, _⟩ => ⟨S2x12x2048, .f32⟩
  | .hbm, ⟨46, _⟩ => ⟨S2x12x2048x1, .f32⟩
  | .hbm, ⟨47, _⟩ => ⟨S2x12x2048x2048, .f32⟩
  | .hbm, ⟨48, _⟩ => ⟨S2x12x2048x2048, .f32⟩
  | .hbm, ⟨49, _⟩ => ⟨S2x12x2048x64, .f32⟩
  | .hbm, ⟨50, _⟩ => ⟨S2x2048x12x64, .f32⟩
  | .hbm, ⟨51, _⟩ => ⟨S2x2048x768, .f32⟩
  | .hbm, ⟨52, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  bcast_S_S2048x2048 : S_.BroadcastsInDim S2048x2048 (![] : Fin 0 → Fin S2048x2048.rank)
  bcast_S2048x2048_S2x12x2048x2048_2_3 : S2048x2048.BroadcastsInDim S2x12x2048x2048 (![2, 3] : Fin 2 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  dot_S2x2048x768_S768x768_S2x2048x768_2_1_01_0_n_n_wf : DotDims.WF S2x2048x768 S768x768 S2x2048x768 [2] [1] [0, 1] [0] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.KIBody0.lean ====
import proofs.«423483_j75299366633636_3_alg».proof.Proof.Gen.KernelIdeal.Launch
import proofs.«423483_j75299366633636_3_alg».proof.Proof.Gen.KernelIdeal.Skeleton
import proofs.«423483_j75299366633636_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The projection kernel's region: at every grid point the body reads one row tile of the activations and the
whole concatenated weight, multiplies them, and overwrites its output tile. This module states what the output
tile holds after the body as a function of the two input tiles, proves the body's triple, and packages the
region's proof data and body obligation at ANY contents `V` of the core's buffers at the region's entry. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each whole staging buffer. -/
abbrev r0_x : Rect S1x512x768 := Rect.unit (s := S1x512x768) ![0, 0, 0] S1x512x768.size inb_S1x512x768_S1x512x768_0_0_0
abbrev r0_w : Rect S768x2304 := Rect.unit (s := S768x2304) ![0, 0] S768x2304.size inb_S768x2304_S768x2304_0_0
abbrev r0_y : Rect S1x512x2304 := Rect.unit (s := S1x512x2304) ![0, 0, 0] S1x512x2304.size inb_S1x512x2304_S1x512x2304_0_0_0

/-- The output tile after the body: the product of the activation tile with the weight, stored whole. -/
def out0_2 (x0 : Vec F S1x512x768 .f32) (x1 : Vec F S768x2304 .bf16) : Vec F S1x512x2304 .bf16 :=
  View.canon [⟨r0_y, k0_pay1 (View.ld x0 r0_x) (View.ld x1 r0_w)⟩]

theorem cover0_2 (p0 : Vec F S1x512x2304 .bf16) (y : S1x512x2304.Idx) :
    ∃ pc ∈ ([⟨r0_y, p0⟩] : List (View.Piece (Elt F) S1x512x2304 .bf16)), y ∈ pc.1.set :=
  View.cover_of_tiled [⟨r0_y, p0⟩] S1x512x2304.size (by rfl) y

set_option maxHeartbeats 1000000 in
/-- The body on whole staging memrefs: the inputs are left as they were, the output holds `out0_2` of them. -/
theorem sound_kernel0 (c : Dev nD) (E : Set ℕ) (i : grid0.Coords)
    (arg0 : Memref sig .tc .vmem S1x512x768 .f32) (harg0 : arg0.IsWhole) (arg1 : Memref sig .tc .vmem S768x2304 .bf16) (harg1 : arg1.IsWhole)
    (arg2 : Memref sig .tc .vmem S1x512x2304 .bf16) (harg2 : arg2.IsWhole)
    (x0 : Vec F S1x512x768 .f32) (x1 : Vec F S768x2304 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body each input's buffer at
    its block and the output's at `out0_2` of the input blocks; the scoped rest and the generator register as the
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
import proofs.«423483_j75299366633636_3_alg».proof.Proof.Gen.KernelIdeal.Launch
import proofs.«423483_j75299366633636_3_alg».proof.Proof.Gen.KernelIdeal.Skeleton
import proofs.«423483_j75299366633636_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention kernel's region: at every grid point the body reads a tile of 512 query rows, the batch's whole
key and value slabs and the output-projection weight, computes the twelve heads' causal softmax-weighted sums one
after another (each head a 64-column slice of the three slabs), lays them side by side, multiplies by the weight and
overwrites its output tile. The query, key and value windows are three column bands of ONE array, which the region
therefore holds at three shares. This module states what the output tile holds after the body as a function of the
four input tiles and the grid point (the causal mask depends on the tile's position), proves the body's triple, and
packages the region's proof data and body obligation at ANY contents `V` of the core's buffers at the region's entry. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads: head `h`'s 64 columns of the query tile (`rqh`) and of a key or value slab (`rkh`);
    the whole weight; and the whole output tile it writes. -/
abbrev rq0 : Rect S1x512x768 := Rect.unit (s := S1x512x768) ![0, 0, 0] S1x512x64.size inb_S1x512x768_S1x512x64_0_0_0
abbrev rq1 : Rect S1x512x768 := Rect.unit (s := S1x512x768) ![0, 0, 64] S1x512x64.size inb_S1x512x768_S1x512x64_0_0_64
abbrev rq2 : Rect S1x512x768 := Rect.unit (s := S1x512x768) ![0, 0, 128] S1x512x64.size inb_S1x512x768_S1x512x64_0_0_128
abbrev rq3 : Rect S1x512x768 := Rect.unit (s := S1x512x768) ![0, 0, 192] S1x512x64.size inb_S1x512x768_S1x512x64_0_0_192
abbrev rq4 : Rect S1x512x768 := Rect.unit (s := S1x512x768) ![0, 0, 256] S1x512x64.size inb_S1x512x768_S1x512x64_0_0_256
abbrev rq5 : Rect S1x512x768 := Rect.unit (s := S1x512x768) ![0, 0, 320] S1x512x64.size inb_S1x512x768_S1x512x64_0_0_320
abbrev rq6 : Rect S1x512x768 := Rect.unit (s := S1x512x768) ![0, 0, 384] S1x512x64.size inb_S1x512x768_S1x512x64_0_0_384
abbrev rq7 : Rect S1x512x768 := Rect.unit (s := S1x512x768) ![0, 0, 448] S1x512x64.size inb_S1x512x768_S1x512x64_0_0_448
abbrev rq8 : Rect S1x512x768 := Rect.unit (s := S1x512x768) ![0, 0, 512] S1x512x64.size inb_S1x512x768_S1x512x64_0_0_512
abbrev rq9 : Rect S1x512x768 := Rect.unit (s := S1x512x768) ![0, 0, 576] S1x512x64.size inb_S1x512x768_S1x512x64_0_0_576
abbrev rq10 : Rect S1x512x768 := Rect.unit (s := S1x512x768) ![0, 0, 640] S1x512x64.size inb_S1x512x768_S1x512x64_0_0_640
abbrev rq11 : Rect S1x512x768 := Rect.unit (s := S1x512x768) ![0, 0, 704] S1x512x64.size inb_S1x512x768_S1x512x64_0_0_704
abbrev rk0 : Rect S1x2048x768 := Rect.unit (s := S1x2048x768) ![0, 0, 0] S1x2048x64.size inb_S1x2048x768_S1x2048x64_0_0_0
abbrev rk1 : Rect S1x2048x768 := Rect.unit (s := S1x2048x768) ![0, 0, 64] S1x2048x64.size inb_S1x2048x768_S1x2048x64_0_0_64
abbrev rk2 : Rect S1x2048x768 := Rect.unit (s := S1x2048x768) ![0, 0, 128] S1x2048x64.size inb_S1x2048x768_S1x2048x64_0_0_128
abbrev rk3 : Rect S1x2048x768 := Rect.unit (s := S1x2048x768) ![0, 0, 192] S1x2048x64.size inb_S1x2048x768_S1x2048x64_0_0_192
abbrev rk4 : Rect S1x2048x768 := Rect.unit (s := S1x2048x768) ![0, 0, 256] S1x2048x64.size inb_S1x2048x768_S1x2048x64_0_0_256
abbrev rk5 : Rect S1x2048x768 := Rect.unit (s := S1x2048x768) ![0, 0, 320] S1x2048x64.size inb_S1x2048x768_S1x2048x64_0_0_320
abbrev rk6 : Rect S1x2048x768 := Rect.unit (s := S1x2048x768) ![0, 0, 384] S1x2048x64.size inb_S1x2048x768_S1x2048x64_0_0_384
abbrev rk7 : Rect S1x2048x768 := Rect.unit (s := S1x2048x768) ![0, 0, 448] S1x2048x64.size inb_S1x2048x768_S1x2048x64_0_0_448
abbrev rk8 : Rect S1x2048x768 := Rect.unit (s := S1x2048x768) ![0, 0, 512] S1x2048x64.size inb_S1x2048x768_S1x2048x64_0_0_512
abbrev rk9 : Rect S1x2048x768 := Rect.unit (s := S1x2048x768) ![0, 0, 576] S1x2048x64.size inb_S1x2048x768_S1x2048x64_0_0_576
abbrev rk10 : Rect S1x2048x768 := Rect.unit (s := S1x2048x768) ![0, 0, 640] S1x2048x64.size inb_S1x2048x768_S1x2048x64_0_0_640
abbrev rk11 : Rect S1x2048x768 := Rect.unit (s := S1x2048x768) ![0, 0, 704] S1x2048x64.size inb_S1x2048x768_S1x2048x64_0_0_704
abbrev rW : Rect S768x768 := Rect.unit (s := S768x768) ![0, 0] S768x768.size inb_S768x768_S768x768_0_0
abbrev rO : Rect S1x512x768 := Rect.unit (s := S1x512x768) ![0, 0, 0] S1x512x768.size inb_S1x512x768_S1x512x768_0_0_0

/-- The output tile after the body at grid coordinates `i`, from the query tile `x0`, the key slab `x1`, the value slab
    `x2` and the weight `x3`: the twelve heads' outputs, each from its three column slices, concatenated and projected. -/
def out1_4 (i : grid1.Coords) (x0 : Vec F S1x512x768 .bf16) (x1 : Vec F S1x2048x768 .bf16) (x2 : Vec F S1x2048x768 .bf16) (x3 : Vec F S768x768 .bf16) :
    Vec F S1x512x768 .f32 :=
  View.canon [⟨rO, k1_pay1 (k1_pay2 i)
    (k1_pay3 i (View.ld x0 rq0) (View.ld x1 rk0) (View.ld x2 rk0))
    (k1_pay6 (k1_pay2 i) (k1_pay4 (View.ld x0 rq1)) (k1_pay5 (View.ld x1 rk1)) (View.ld x2 rk1))
    (k1_pay10 (k1_pay8 (k1_pay2 i) (View.ld x0 rq2) (View.ld x1 rk2)) (k1_pay9 (k1_pay2 i) (View.ld x0 rq2) (View.ld x1 rk2) (View.ld x2 rk2)))
    (k1_pay11 (k1_pay2 i) (View.ld x0 rq3) (View.ld x1 rk3) (View.ld x2 rk3))
    (k1_pay14 (k1_pay2 i) (k1_pay12 (View.ld x2 rk4)) (k1_pay13 (View.ld x0 rq4) (View.ld x1 rk4)) (Named.named κ "neg_big" 0xFF333332#32))
    (k1_pay15 (k1_pay2 i) (View.ld x0 rq5) (View.ld x1 rk5) (View.ld x2 rk5))
    (k1_pay17 (k1_pay2 i) (k1_pay16 (View.ld x0 rq6)) (View.ld x1 rk6) (View.ld x2 rk6))
    (k1_pay20 (k1_pay18 (View.ld x2 rk7)) (k1_pay19 (k1_pay2 i) (View.ld x0 rq7) (View.ld x1 rk7)))
    (k1_pay21 (k1_pay2 i) (View.ld x0 rq8) (View.ld x1 rk8) (View.ld x2 rk8))
    (k1_pay25 (k1_pay2 i) (k1_pay22 (View.ld x0 rq9)) (k1_pay23 (View.ld x1 rk9)) (k1_pay24 (View.ld x2 rk9)) (constant S512x2048 .f32 0x00000000#32))
    (k1_pay26 (k1_pay2 i) (View.ld x0 rq10) (View.ld x1 rk10) (View.ld x2 rk10))
    (View.ld x0 rq11) (View.ld x1 rk11) (View.ld x2 rk11) (View.ld x3 rW)⟩]

theorem cover1_4 (p0 : Vec F S1x512x768 .f32) (y : S1x512x768.Idx) :
    ∃ pc ∈ ([⟨rO, p0⟩] : List (View.Piece (Elt F) S1x512x768 .f32)), y ∈ pc.1.set :=
  View.cover_of_tiled [⟨rO, p0⟩] S1x512x768.size (by rfl) y

set_option maxHeartbeats 4000000 in
/-- The body on whole staging memrefs: the four inputs are left as they were, the output holds `out1_4` of them. -/
theorem sound_kernel1 (c : Dev nD) (E : Set ℕ) (i : grid1.Coords)
    (arg0 : Memref sig .tc .vmem S1x512x768 .bf16) (harg0 : arg0.IsWhole) (arg1 : Memref sig .tc .vmem S1x2048x768 .bf16) (harg1 : arg1.IsWhole)
    (arg2 : Memref sig .tc .vmem S1x2048x768 .bf16) (harg2 : arg2.IsWhole) (arg3 : Memref sig .tc .vmem S768x768 .bf16) (harg3 : arg3.IsWhole)
    (arg4 : Memref sig .tc .vmem S1x512x768 .f32) (harg4 : arg4.IsWhole)
    (x0 : Vec F S1x512x768 .bf16) (x1 : Vec F S1x2048x768 .bf16) (x2 : Vec F S1x2048x768 .bf16) (x3 : Vec F S768x768 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 i x0 x1 x2 x3)) -∗ K ⟨⟩))
      ⊢ wp frame (wpE (defs₀ (F := F)) Variants.none c none) E (cc1__attn_outproj_kernel i arg0 harg0 arg1 harg1 arg2 harg2 arg3 harg3 arg4 harg4) K := by
  simp only [cc1__attn_outproj_kernel_eq_skeleton]; unfold cc1__attn_outproj_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-- The region's proof data on core `c`: the arrays as the region finds them; after the body each input's buffer at
    its block and the output's at `out1_4` of the input blocks at the point's coordinates; the scoped rest and the
    generator register as the invariant; nothing owed. The query, key and value windows read ONE array: they hold it at
    a half, a quarter and a quarter; the weight's and the output's arrays are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = out1_4 (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIFold.lean ====
import proofs.«423483_j75299366633636_3_alg».proof.Proof.KIBody0
import proofs.«423483_j75299366633636_3_alg».proof.Proof.KIBody1

/-! The contents of the core's buffers at the four boundaries of the program: at launch; after the host operations
that build the two transposed weights; after the projection region, which overwrites the query-key-value array;
after the attention region, which overwrites the result. Each region's proof data is taken at the contents the
region is entered with. -/

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]

variable (m : (ℓ : Loc nD τ sig) → Buf (Elt F) ℓ)

/-- Core `c`'s buffers at launch. -/
abbrev W0 (c : Dev nD) : Valuation τ sig (Elt F) := fun b => m (c, b)
/-- After the host operations (the projection region's entry). -/
abbrev W1 (c : Dev nD) : Valuation τ sig (Elt F) := StableHlo.after hostOps0 (W0 m c)
/-- The same read at the TensorCore's references. -/
abbrev Vr1 : (c : Dev nD) → (b : Ref sig .tc) → Buf (Elt F) ((c : Thread nD τ).loc b) := fun c b => W1 m c b
/-- What the projection region leaves in the query-key-value array: its write-backs folded over the grid. -/
def qkv (c : Dev nD) : Buf (Elt F) ((c : Thread nD τ).loc main_v5) := (dat0 (Vr1 m) c).arrAt 2 cfg0.N
/-- After the projection region (the attention region's entry). -/
def W2 (c : Dev nD) : Valuation τ sig (Elt F) := Function.update (W1 m c) (Proc.devRef .tc main_v5) (qkv m c)
abbrev Vr2 : (c : Dev nD) → (b : Ref sig .tc) → Buf (Elt F) ((c : Thread nD τ).loc b) := fun c b => W2 m c b
/-- What the attention region leaves in the result array. -/
def res (c : Dev nD) : Buf (Elt F) ((c : Thread nD τ).loc main_v6) := (dat1 (Vr2 m) c).arrAt 4 cfg1.N
/-- After the attention region (the end of the program). -/
def W3 (c : Dev nD) : Valuation τ sig (Elt F) := Function.update (W2 m c) (Proc.devRef .tc main_v6) (res m c)

theorem W2_v5 (c : Dev nD) : W2 m c (Proc.devRef .tc main_v5) = qkv m c := by
  unfold W2; exact Function.update_self ..
theorem W2_of_ne (c : Dev nD) (b : Ref sig .tc) (hb : b ≠ main_v5) : W2 m c (Proc.devRef .tc b) = W1 m c (Proc.devRef .tc b) := by
  unfold W2; exact Function.update_of_ne (StableHlo.devRef_ne_of_ne hb) ..
theorem W3_v6 (c : Dev nD) : W3 m c (Proc.devRef .tc main_v6) = res m c := by
  unfold W3; exact Function.update_self ..
theorem W3_of_ne (c : Dev nD) (b : Ref sig .tc) (hb : b ≠ main_v6) : W3 m c (Proc.devRef .tc b) = W2 m c (Proc.devRef .tc b) := by
  unfold W3; exact Function.update_of_ne (StableHlo.devRef_ne_of_ne hb) ..

end Cert.KernelIdeal.Hand

end
-- ==== Proof.KIShare.lean ====
import proofs.«423483_j75299366633636_3_alg».proof.Proof.KIBody1
import Idealize.ShloMosaic.Lib.Pipeline.RegionsLoop
import Idealize.ShloMosaic.Lib.Pipeline.Kit

/-! The attention region's five windows stand on three arrays: the query, key and value windows are column bands of one
array, held at a half, a quarter and a quarter of it. At the region's entry the three distinct arrays, each held whole,
are dealt out to the five windows by halving the shared array's share twice; at its exit the three parts, which still
hold the same contents because input windows are never written back, are joined again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The windows' shares: a half, a quarter and a quarter of the shared array; the weight and the output whole. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl
theorem share1_4 (c : Dev nD) : (dat1 V c).share 4 = fullShare := rfl

/-- The distinct arrays behind the windows, listed. -/
theorem arrs1 : Finset.univ.image (Pipeline.arrRef spec1) = [main_v5, main_v4, main_v6].toFinset := by decide

/-- A conjunction over the distinct arrays, one by one. -/
theorem bigSep_arrs1 {M : Type} [URA M] (Φ : Ref sig .tc → sProp M) :
    bigSep (Finset.univ.image (Pipeline.arrRef spec1)) Φ = iprop(Φ main_v5 ∗ Φ main_v4 ∗ Φ main_v6) :=
  bigSep_eq_bigSepL_of_eq [main_v5, main_v4, main_v6] arrs1 (by decide) Φ

/-- A whole share of a buffer is a half and two quarters of it, at the same contents. -/
theorem thirds {ℓ : Loc nD τ sig} (f : Buf (Elt F) ℓ) :
    (ℓ ↦{fullShare} f : sProp 𝕄)
      ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).mp $$ H
    icases H' with ⟨Hl, Hr⟩
    ihave Hr' := (pointsTo_share (PosShare.mem_left_op_right fullShare.right)).mp $$ Hr
    icases Hr' with ⟨Hrl, Hrr⟩
    isplitl [Hl]; · iexact Hl
    isplitl [Hrl]; · iexact Hrl
    iexact Hrr
  · iintro ⟨Hl, Hrl, Hrr⟩
    iapply (pointsTo_share (PosShare.mem_left_op_right fullShare)).mpr
    isplitl [Hl]; · iexact Hl
    iapply (pointsTo_share (PosShare.mem_left_op_right fullShare.right)).mpr
    isplitl [Hrl]; · iexact Hrl
    iexact Hrr

/-- A window's array before any write-back holds what the region found in the buffer behind it. -/
theorem arrAt1_zero (c : Dev nD) (w : Fin cfg1.W) : (dat1 V c).arrAt w 0 = V c (Pipeline.arrRef spec1 w) := A_eq1 V c w

/-- An input window's array holds that at every point, being never written back. -/
theorem arrAt1_in (c : Dev nD) (w : Fin cfg1.W) (hin : (cfg1.win w).isOut = false) (n : ℕ) :
    (dat1 V c).arrAt w n = V c (Pipeline.arrRef spec1 w) := ((dat1 V c).arrAt_in w hin n).trans (A_eq1 V c w)

/-- At the region's entry: the three arrays held whole give the five windows' arrays at their shares. -/
theorem arrays1_entry (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [bigSep_W1, bigSep_arrs1]
  simp only [share1_0, share1_1, share1_2, share1_3, share1_4, View.set_whole, arrAt1_zero]
  iintro ⟨H5, H4, H6⟩
  ihave H5' := (thirds (V c main_v5)).mp $$ H5
  icases H5' with ⟨Ha, Hb, Hc⟩
  isplitl [Ha]; · iexact Ha
  isplitl [Hb]; · iexact Hb
  isplitl [Hc]; · iexact Hc
  isplitl [H4]; · iexact H4
  iexact H6

/-- At the region's exit: the five windows' arrays at their shares give back the three arrays held whole, the shared
    array and the weight as they were, the output array as the write-backs left it. -/
theorem arrays1_exit (c : Dev nD) (V' : (b : Ref sig .tc) → Buf (Elt F) ((c : Thread nD τ).loc b))
    (h5 : V' main_v5 = V c main_v5) (h4 : V' main_v4 = V c main_v4) (h6 : V' main_v6 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c V' := by
  unfold Pipeline.arrBufs Dat.arrays
  rw [bigSep_W1, bigSep_arrs1]
  simp only [share1_0, share1_1, share1_2, share1_3, share1_4, View.set_whole,
    arrAt1_in V c 0 rfl, arrAt1_in V c 1 rfl, arrAt1_in V c 2 rfl, arrAt1_in V c 3 rfl]
  rw [h5, h4, h6]
  iintro ⟨Ha, Hb, Hc, H4, H6⟩
  isplitl [Ha Hb Hc]
  · iapply (thirds (V c main_v5)).mpr
    isplitl [Ha]; · iexact Ha
    isplitl [Hb]; · iexact Hb
    iexact Hc
  isplitl [H4]; · iexact H4
  iexact H6

end Cert.KernelIdeal.Hand

end
-- ==== Proof.KIRun.lean ====
import proofs.«423483_j75299366633636_3_alg».proof.Proof.KIFold
import proofs.«423483_j75299366633636_3_alg».proof.Proof.KIShare
import proofs.«423483_j75299366633636_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

/-! The run of the whole program: the host operations, the projection region, the attention region, as three
segments over the thread state "every unscoped buffer at the boundary's contents, the generator register at some
state, nothing owed". The projection region's three arrays are distinct buffers held whole. The attention region reads
ONE buffer through three windows: at its entry that buffer's whole share is cut into a half and two quarters, one per
window, and at its exit the three parts, unchanged, are joined again. The run's post says what the final memory holds
at the result (the attention region's write-backs folded over the grid) and that the five arguments are as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev admK : (p : Fin 2) → (pcfgs (F := F) p).Adm := fun p => (cfgs p).toPCfg_adm

/-- Each region's proof data at its entry contents. -/
def pdats : (p : Fin 2) → (c : Dev nD) → Dat τ (Elt F) Unit ℕ (UR sig nD τ) ℕ (Pipeline.pin (pcfgs (F := F)) admK p) c
  | ⟨0, _⟩ => fun c => dat0 (Vr1 m) c
  | ⟨1, _⟩ => fun c => dat1 (Vr2 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## Region 0: three distinct arrays -/

theorem hF0 (c : Dev nD) (w : Fin cfg0.W) : (dat0 (Vr1 m) c).arrAt w cfg0.N = Vr2 m c (Pipeline.arrRef spec0 w) := by
  match w with
  | ⟨0, _⟩ => exact ((dat0 (Vr1 m) c).arrAt_in 0 rfl _).trans ((A_eq0 (Vr1 m) c 0).trans (W2_of_ne m c main_arg0 (by decide)).symm)
  | ⟨1, _⟩ => exact ((dat0 (Vr1 m) c).arrAt_in 1 rfl _).trans ((A_eq0 (Vr1 m) c 1).trans (W2_of_ne m c main_v2 (by decide)).symm)
  | ⟨2, _⟩ => exact (W2_v5 m c).symm

theorem hrest0 (c : Dev nD) : ∀ b, b ∉ Finset.univ.image (Pipeline.arrRef spec0) → Vr2 m c b = Vr1 m c b :=
  fun b hb => W2_of_ne m c b fun e => hb (Finset.mem_image.mpr ⟨2, Finset.mem_univ _, e.symm⟩)

set_option backward.isDefEq.respectTransparency.types false in
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one buffer behind three windows -/

/-- The same read at the TensorCore's references, at the end. -/
abbrev Vr3 : (c : Dev nD) → (b : Ref sig .tc) → Buf (Elt F) ((c : Thread nD τ).loc b) := fun c b => W3 m c b

/-- The buffers no window of the attention region stages are untouched by it. -/
theorem rest1_congr (c : Dev nD) :
    (Pipeline.unscopedRest (Ix := Unit) (Name := ℕ) (U := UR sig nD τ) (Lvl := ℕ) spec1 c (Vr3 m c) : sProp 𝕄)
      = Pipeline.unscopedRest spec1 c (Vr2 m c) := by
  unfold Pipeline.unscopedRest
  exact bigSep_congr fun b hb => by
    rw [show Vr3 m c b = Vr2 m c b from W3_of_ne m c b fun e => (Finset.mem_sdiff.mp hb).2 (Finset.mem_image.mpr ⟨4, Finset.mem_univ _, e.symm⟩)]

set_option backward.isDefEq.respectTransparency.types false in
def reg1 : Pipeline.RegionSeg (pcfgs (F := F)) admK (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit : (unscopedBufs c (Vr2 m c) : sProp 𝕄)
        ⊢ iprop((pdats m 1 c).arrays ((pdats m 1 c).arrAt · 0) ∗ Pipeline.unscopedRest spec1 c (Vr2 m c)) := by
      rw [Pipeline.unscopedBufs_split₀ (Pipeline.pin (pcfgs (F := F)) admK) 1 winFacts₀1.arr_unscoped c (Vr2 m c)]
      exact BIClass.sep_mono (arrays1_entry (Vr2 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vr2 m c))
        ⊢ (unscopedBufs c (Vr3 m c) : sProp 𝕄) := by
      rw [Pipeline.unscopedBufs_split₀ (Pipeline.pin (pcfgs (F := F)) admK) 1 winFacts₀1.arr_unscoped c (Vr3 m c)]
      exact BIClass.sep_mono (arrays1_exit (Vr2 m) c (Vr3 m c) (W3_of_ne m c main_v5 (by decide)) (W3_of_ne m c main_v4 (by decide)) (W3_v6 m c))
        (Entails.of_eq (rest1_congr m c).symm)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The arguments end as launched -/

theorem W3_arg (c : Dev nD) (b : Ref sig .tc) (h6 : b ≠ main_v6) (h5 : b ≠ main_v5) (hw : b ∉ hostOps0_W) :
    W3 m c (Proc.devRef .tc b) = m ((c : Thread nD τ).loc b) :=
  (W3_of_ne m c b h6).trans <| (W2_of_ne m c b h5).trans <| (V1_of m c b hw).trans rfl

/-! ## @main as segments, and the launch -/

abbrev segs : List (Pipeline.Seg (pcfgs (F := F)) admK (pdats m) () defs₀ 𝒱₀ L lv) :=
  [ .host (hseg hostOps0 hostOps0_sub hostOps0_fresh' (W0 m)),
    .region (reg0 m),
    .region (reg1 m) ]

set_option backward.isDefEq.respectTransparency.types false in
/-- THE RUN: from any memory with zero counters, every weakly fair execution of the program terminates, nothing
    faulting; the final memory holds, at the result, the attention region's write-backs folded over the grid, and
    each of the five arguments as launched. -/
theorem run_main : θ_run defs (onTc (τ := τ) (main (F := F))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) admK (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v6 (by decide))).trans (W3_v6 m c),
        (h c _ (mem_uc main_arg0 (by decide))).trans (W3_arg m c main_arg0 (by decide) (by decide) (by decide)),
        (h c _ (mem_uc main_arg1 (by decide))).trans (W3_arg m c main_arg1 (by decide) (by decide) (by decide)),
        (h c _ (mem_uc main_arg2 (by decide))).trans (W3_arg m c main_arg2 (by decide) (by decide) (by decide)),
        (h c _ (mem_uc main_arg3 (by decide))).trans (W3_arg m c main_arg3 (by decide) (by decide) (by decide)),
        (h c _ (mem_uc main_arg4 (by decide))).trans (W3_arg m c main_arg4 (by decide) (by decide) (by decide))⟩)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.Spec.lean ====
import Idealize.ShloMosaic.PureOps.Ideal
import Idealize.ShloMosaic.Lib.ValueIdx

/-! Causal multi-head self-attention with an output projection, written once as plain functions over the extended
reals, index by index. The attention itself is stated over ANY three arrays of queries, keys and values (batch ×
position × 768 features, the twelve heads side by side); the program's result instantiates them with the three
linear projections of the activations. Two forms are given, differing only in where the softmax denominator
divides: `headKG` divides the weighted sum of the values by the denominator (one division per output entry),
`headRG` divides every weight first. Everything before that point — the scaled and masked scores, the row maximum, the
shifted exponentials and their sum — is shared. -/

noncomputable section

namespace Cert.Spec

open Idealize.ShloMosaic Idealize.ShloMosaic.ValueIdx

/-- Activations and result: batch × position × model dimension. -/
abbrev Act : Type := (⟨3, ![2, 2048, 768]⟩ : Shape).Idx → EReal
/-- A weight matrix: output feature × input feature. -/
abbrev Wt : Type := (⟨2, ![768, 768]⟩ : Shape).Idx → EReal
/-- Queries, keys or values: batch, position, feature. -/
abbrev QKV : Type := Fin 2 → Fin 2048 → Fin 768 → EReal

/-- A linear projection: entry `(b, s, o)` is the dot product of position `s`'s features with row `o` of the weight. -/
def proj (x : Act) (w : Wt) : QKV := fun b s o => ∑ d : Fin 768, x (ix3 b s d) * w (ix2 o d)

/-- Feature `d` of head `h` among the 768 model features. -/
def col (h : Fin 12) (d : Fin 64) : Fin 768 := ⟨h.val * 64 + d.val, by have := h.isLt; have := d.isLt; omega⟩

/-- The scale of the scores, one over the square root of the head dimension 64. -/
def eighth : EReal := ((1 / 8 : ℝ) : EReal)

/-- Feature `i` of the 768 belongs to head `i / 64`, at its feature `i % 64`. -/
def headOf (i : Fin 768) : Fin 12 := ⟨i.val / 64, by have := i.isLt; omega⟩
def featOf (i : Fin 768) : Fin 64 := ⟨i.val % 64, Nat.mod_lt _ (by decide)⟩

section Attention

variable (Q K V : QKV)

/-- The unscaled score of query position `q` against key position `k` in head `h`. -/
def dotG (b : Fin 2) (h : Fin 12) (q k : Fin 2048) : EReal :=
  ∑ d : Fin 64, Q b q (col h d) * K b k (col h d)

/-- The scaled score under the causal mask: a key after the query scores minus infinity. -/
def scoreG (b : Fin 2) (h : Fin 12) (q k : Fin 2048) : EReal :=
  if k.val ≤ q.val then dotG Q K b h q k * eighth else ⊥

/-- The largest score of a query's row. -/
def rowMaxG (b : Fin 2) (h : Fin 12) (q : Fin 2048) : EReal :=
  Finset.univ.sup fun k : Fin 2048 => scoreG Q K b h q k

/-- The shifted exponential of a score. -/
def pexpG (b : Fin 2) (h : Fin 12) (q k : Fin 2048) : EReal :=
  Ideal.exp (scoreG Q K b h q k - rowMaxG Q K b h q)

/-- The softmax denominator of a query's row. -/
def denomG (b : Fin 2) (h : Fin 12) (q : Fin 2048) : EReal :=
  ∑ k : Fin 2048, pexpG Q K b h q k

/-- A head's output, the weighted sum divided once. -/
def headKG (b : Fin 2) (h : Fin 12) (q : Fin 2048) (d : Fin 64) : EReal :=
  Ideal.div (∑ k : Fin 2048, pexpG Q K b h q k * V b k (col h d)) (denomG Q K b h q)

/-- A head's output, every weight divided first. -/
def headRG (b : Fin 2) (h : Fin 12) (q : Fin 2048) (d : Fin 64) : EReal :=
  ∑ k : Fin 2048, Ideal.div (pexpG Q K b h q k) (denomG Q K b h q) * V b k (col h d)

/-- The heads side by side. -/
def attnKG : QKV := fun b s i => headKG Q K V b (headOf i) s (featOf i)
def attnRG : QKV := fun b s i => headRG Q K V b (headOf i) s (featOf i)

end Attention

variable (x : Act) (wq wk wv wo : Wt)

/-- The output projection of the concatenated heads of the projected activations, in the two forms. -/
def outK : Act := fun j => ∑ i : Fin 768, attnKG (proj x wq) (proj x wk) (proj x wv) (j 0) (j 1) i * wo (ix2 (j 2) i)
def outR : Act := fun j => ∑ i : Fin 768, attnRG (proj x wq) (proj x wk) (proj x wv) (j 0) (j 1) i * wo (ix2 (j 2) i)

end Cert.Spec

end
-- ==== Proof.KIValue0.lean ====
import proofs.«423483_j75299366633636_3_alg».proof.Proof.KIFold
import proofs.«423483_j75299366633636_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

/-! The projection region read at an index. The host operations lay the three projection weights side by side as the
columns of one 768 × 2304 matrix (column `n` is row `n`, `n - 768` or `n - 1536` of the query, key or value weight) and
transpose the output weight; the region multiplies every row tile of the activations by that matrix, so the array it
leaves holds at `(b, s, n)` the dot product of position `s`'s features with column `n`: the three linear projections
side by side. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- The five arguments as core `c` holds them at launch. -/
abbrev x : Cert.Spec.Act := m ((c : Thread nD τ).loc main_arg0)
abbrev wq : Cert.Spec.Wt := m ((c : Thread nD τ).loc main_arg1)
abbrev wk : Cert.Spec.Wt := m ((c : Thread nD τ).loc main_arg2)
abbrev wv : Cert.Spec.Wt := m ((c : Thread nD τ).loc main_arg3)
abbrev wo : Cert.Spec.Wt := m ((c : Thread nD τ).loc main_arg4)

/-! ## The host operations read at an index -/

/-- The matrix the region multiplies by: the three projection weights joined along their rows, transposed. -/
theorem v2_eq : (Vr1 m c main_v2 : S768x2304.Idx → EReal)
    = transpose S768x2304 [1, 0] (concatenate S2304x768 0 [⟨S768x768, wq m c⟩, ⟨S768x768, wk m c⟩, ⟨S768x768, wv m c⟩]
        concatenates_S768x768_S768x768_S768x768_S2304x768_d0) transposes_S2304x768_S768x2304_1_0 := by
  dsimp only [Vr1, W1, hostOps0]
  after_results
  rfl

/-- The output weight the second region multiplies by: transposed. -/
theorem v4_eq : (Vr1 m c main_v4 : S768x768.Idx → EReal)
    = transpose S768x768 [1, 0] (wo m c) transposes_S768x768_S768x768_1_0 := by
  dsimp only [Vr1, W1, hostOps0]
  after_results
  rfl

/-- No host operation writes the activations. -/
theorem x_eq : (Vr1 m c main_arg0) = x m c := by
  dsimp only [Vr1, W1, hostOps0]
  after_results

/-- Column `n` of the joined weight is row `n`, `n - 768` or `n - 1536` of the query, key or value weight. -/
theorem w2_apply (d : Fin 768) (n : Fin 2304) :
    (Vr1 m c main_v2 : S768x2304.Idx → EReal) (ix2 d n)
      = if h : n.val < 768 then wq m c (ix2 ⟨n.val, h⟩ d)
        else if h' : n.val < 1536 then wk m c (ix2 ⟨n.val - 768, by omega⟩ d)
        else wv m c (ix2 ⟨n.val - 1536, by omega⟩ d) := by
  refine (congrFun (v2_eq m c) (ix2 d n)).trans ?_
  rw [transpose_ix2_apply]
  by_cases h : n.val < 768
  · rw [dif_pos h]
    refine concatenate_apply_piece 0 [⟨S768x768, wq m c⟩, ⟨S768x768, wk m c⟩, ⟨S768x768, wv m c⟩] concatenates_S768x768_S768x768_S768x768_S2304x768_d0 (ix2 n d) 0 (by show 0 < 3; omega) S768x768 (wq m c) rfl rfl 0 rfl (ix2 ⟨n.val, h⟩ d) (fun b hb => ?_) ?_
    · match b with
      | ⟨0, _⟩ => exact absurd rfl hb
      | ⟨1, _⟩ => rfl
    · show 0 + n.val = n.val; omega
  · rw [dif_neg h]
    by_cases h' : n.val < 1536
    · rw [dif_pos h']
      refine concatenate_apply_piece 0 [⟨S768x768, wq m c⟩, ⟨S768x768, wk m c⟩, ⟨S768x768, wv m c⟩] concatenates_S768x768_S768x768_S768x768_S2304x768_d0 (ix2 n d) 1 (by show 1 < 3; omega) S768x768 (wk m c) rfl rfl 768 rfl (ix2 ⟨n.val - 768, by omega⟩ d) (fun b hb => ?_) ?_
      · match b with
        | ⟨0, _⟩ => exact absurd rfl hb
        | ⟨1, _⟩ => rfl
      · show 768 + (n.val - 768) = n.val; omega
    · rw [dif_neg h']
      refine concatenate_apply_piece 0 [⟨S768x768, wq m c⟩, ⟨S768x768, wk m c⟩, ⟨S768x768, wv m c⟩] concatenates_S768x768_S768x768_S768x768_S2304x768_d0 (ix2 n d) 2 (by show 2 < 3; omega) S768x768 (wv m c) rfl rfl 1536 rfl (ix2 ⟨n.val - 1536, by omega⟩ d) (fun b hb => ?_) ?_
      · match b with
        | ⟨0, _⟩ => exact absurd rfl hb
        | ⟨1, _⟩ => rfl
      · show 1536 + (n.val - 1536) = n.val; omega

/-- The transposed output weight at `(i, j)` is the output weight at `(j, i)`. -/
theorem w4_apply (i j : Fin 768) : (Vr1 m c main_v4 : S768x768.Idx → EReal) (ix2 i j) = wo m c (ix2 j i) := by
  refine (congrFun (v4_eq m c) (ix2 i j)).trans ?_
  rw [transpose_ix2_apply]

/-! ## The region's payload at an index -/

/-- The product's row coordinate on the left operand is the output's row. -/
theorem lhs_k0_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
/-- Its column coordinate is the contraction index. -/
theorem lhs_k0_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
/-- On the right operand the row coordinate is the contraction index. -/
theorem rhs_k0_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
/-- And the column coordinate is the output's column. -/
theorem rhs_k0_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The tile the body stores: entry `(0, r, n)` is the dot product of row `r` of the activation tile with column `n` of
    the weight. -/
theorem pay0_apply (xb : Vec Ideal S1x512x768 .f32) (w : Vec Ideal S768x2304 .bf16) (r : Fin 512) (n : Fin 2304) :
    k0_pay1 xb w (ix3 0 r n) = ∑ d : Fin 768, xb (ix3 0 r d) * w (ix2 d n) := by
  unfold k0_pay1
  rw [shapeCast_ab_1ab_apply]
  rw [truncf_apply]
  simp only [matmul]
  rw [Ideal.matmul_constant_zero_apply, ← Equiv.sum_comp (contrEquiv1 dot_S512x768_S768x2304_S512x2304_1_0_0_1_n_n 768 rfl rfl).symm]
  refine Finset.sum_congr rfl fun k _ => ?_
  have hk := contrEquiv1_symm_val dot_S512x768_S768x2304_S512x2304_1_0_0_1_n_n 768 rfl rfl k
  have el : dot_S512x768_S768x2304_S512x2304_1_0_0_1_n_n.lhsIdx (ix2 r n) ((contrEquiv1 dot_S512x768_S768x2304_S512x2304_1_0_0_1_n_n 768 rfl rfl).symm k) = ix2 r k := funext fun a => Fin.ext (by
    match a with
    | ⟨0, _⟩ => exact lhs_k0_0 _ _
    | ⟨1, _⟩ => exact (lhs_k0_1 _ _).trans hk)
  have er : dot_S512x768_S768x2304_S512x2304_1_0_0_1_n_n.rhsIdx (ix2 r n) ((contrEquiv1 dot_S512x768_S768x2304_S512x2304_1_0_0_1_n_n 768 rfl rfl).symm k) = ix2 k n := funext fun a => Fin.ext (by
    match a with
    | ⟨0, _⟩ => exact (rhs_k0_0 _ _).trans hk
    | ⟨1, _⟩ => exact rhs_k0_1 _ _)
  rw [el, er, truncf_apply, shapeCast_self, shapeCast_1ab_ab_apply]

/-! ## From the tiles to the array -/

theorem hz0_3 : (![0, 0, 0] : Fin 3 → Nat) = fun _ => 0 := funext fun a => by fin_cases a <;> rfl
theorem hz0_2 : (![0, 0] : Fin 2 → Nat) = fun _ => 0 := funext fun a => by fin_cases a <;> rfl

/-- The tile at any index of its shape. -/
theorem pay0_at (xb : Vec Ideal S1x512x768 .f32) (w : Vec Ideal S768x2304 .bf16) (j : S1x512x2304.Idx) :
    k0_pay1 xb w j = ∑ d : Fin 768, xb (ix3 0 (j 1) d) * w (ix2 d (j 2)) := by
  have hlt : (j 0).val < 1 := (j 0).isLt
  have h0 : j 0 = (0 : Fin 1) := Fin.ext (by show (j 0).val = 0; omega)
  have hj : j = ix3 (0 : Fin 1) (j 1) (j 2) := funext fun a => by
    match a with
    | ⟨0, _⟩ => exact h0
    | ⟨1, _⟩ => rfl
    | ⟨2, _⟩ => rfl
  exact (congrArg (k0_pay1 xb w) hj).trans (pay0_apply xb w (j 1) (j 2))

/-- What the region leaves in the query-key-value array: at `(b, s, n)` the dot product of position `s`'s features with
    column `n` of the joined weight. -/
abbrev G0 : S2x2048x2304.Idx → EReal :=
  fun i => ∑ d : Fin 768, x m c (ix3 (i 0) (i 1) d) * (Vr1 m c main_v2 : S768x2304.Idx → EReal) (ix2 d (i 2))

/-- The index maps over the grid: point `t` is batch `t / 4`, row tile `t % 4`; the activation tile moves with
    the output tile; the weight is one block. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0 :=
  (by decide +kernel : ∀ t : Fin grid0.N, _)

/-- The two input tiles at a point. -/
abbrev xblk0 (t : Fin cfg0.N) : Vec Ideal S1x512x768 .f32 := iblk0 (Vr1 m) c 0 t
abbrev wblk0 (t : Fin cfg0.N) : Vec Ideal S768x2304 .bf16 := iblk0 (Vr1 m) c 1 t

/-- The activation tile at point `t` is rows `(t % 4) * 512 ..` of batch `t / 4`. -/
theorem xblk0_apply (t : Fin cfg0.N) (r : Fin 512) (d : Fin 768) (b : Fin 2) (s : Fin 2048)
    (hb : b.val = t.val / 4) (hs : s.val = (t.val % 4) * 512 + r.val) :
    xblk0 m c t (ix3 0 r d) = x m c (ix3 b s d) := by
  obtain ⟨e0, e1, e2, e3, e4, e5, e6, e7⟩ := idx_facts0 t
  show Vr1 m c main_arg0 (((cfg0.win 0).blk t).view.emb (ix3 0 r d)) = _
  rw [x_eq]
  refine congrArg (x m c) (funext fun a => Fin.ext ?_)
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 768 + 1 * d.val = d.val; omega

/-- The weight tile is the whole weight at every point. -/
theorem wblk0_apply (t : Fin cfg0.N) (d : Fin 768) (n n' : Fin 2304) (hn : n'.val = n.val) :
    wblk0 m c t (ix2 d n) = (Vr1 m c main_v2 : S768x2304.Idx → EReal) (ix2 d n') := by
  obtain ⟨e0, e1, e2, e3, e4, e5, e6, e7⟩ := idx_facts0 t
  show Vr1 m c main_v2 (((cfg0.win 1).blk t).view.emb (ix2 d n)) = _
  refine congrArg (Vr1 m c main_v2) (funext fun a => Fin.ext ?_)
  match a with
  | ⟨0, _⟩ => show win0_1.index t (0 : Fin 2) * 768 + 1 * d.val = d.val; omega
  | ⟨1, _⟩ => show win0_1.index t (1 : Fin 2) * 2304 + 1 * n.val = n'.val; omega

/-- What point `t` writes back is its block of `G0`. -/
theorem flushed0_eq (t : Fin cfg0.N) :
    (dat0 (Vr1 m) c).flushed 2 t = ((cfg0.win 2).blk t).view.read (Elt Ideal) (G0 m c) := by
  show (cfg0.win 2).cut (grid0.coords t) ((dat0 (Vr1 m) c).after 2 t) = _
  rw [after0_2]
  unfold out0_2
  rw [View.canon_unit_zero hz0_3]
  simp only [View.ld_unit_zero (S := S1x512x768) hz0_3, View.ld_unit_zero (S := S768x2304) hz0_2]
  obtain ⟨e0, e1, e2, e3, e4, e5, e6, e7⟩ := idx_facts0 t
  funext j
  have hj0 : (j 0).val < 1 := (j 0).isLt
  have hj1 : (j 1).val < 512 := (j 1).isLt
  have hj2 : (j 2).val < 2304 := (j 2).isLt
  have hb : ((((cfg0.win 2).blk t).view.emb j) 0).val = t.val / 4 := by
    show win0_2.index t (0 : Fin 3) * 1 + 1 * (j 0).val = t.val / 4; omega
  have hs : ((((cfg0.win 2).blk t).view.emb j) 1).val = (t.val % 4) * 512 + (j 1).val := by
    show win0_2.index t (1 : Fin 3) * 512 + 1 * (j 1).val = _; omega
  have hn : ((((cfg0.win 2).blk t).view.emb j) 2).val = (j 2).val := by
    show win0_2.index t (2 : Fin 3) * 2304 + 1 * (j 2).val = _; omega
  show k0_pay1 (xblk0 m c t) (wblk0 m c t) (win0_2.xinj (grid0.coords t) j) = G0 m c (((cfg0.win 2).blk t).view.emb j)
  refine (pay0_at (xblk0 m c t) (wblk0 m c t) _).trans ?_
  refine Finset.sum_congr rfl fun d _ => ?_
  exact congrArg₂ (· * ·) (xblk0_apply m c t _ d _ _ hb hs) (wblk0_apply m c t d _ _ hn)

/-- An index of the array is in point `t`'s block iff each coordinate is in the block's range on its axis. -/
theorem mem_blk0 (t : Fin cfg0.N) (i : S2x2048x2304.Idx) :
    i ∈ ((cfg0.win 2).blk t).view.set ↔ ∀ a : Fin 3, win0_2.index t a * S1x512x2304.size a ≤ (i a).val ∧ (i a).val < win0_2.index t a * S1x512x2304.size a + S1x512x2304.size a := by
  show i ∈ ((View.whole main_v5).slice (win0_2.rect t)).set ↔ _
  rw [View.set_slice_whole, Rect.mem_set_unit]
  exact Iff.rfl

/-- Every index lies in the block of the point of its batch and row tile. -/
theorem cover0 (i : S2x2048x2304.Idx) : ∃ t : Fin cfg0.N, (cfg0.win 2).flush t = true ∧ i ∈ ((cfg0.win 2).blk t).view.set := by
  have h0 : (i 0).val < 2 := (i 0).isLt
  have h1 : (i 1).val < 2048 := (i 1).isLt
  have h2 : (i 2).val < 2304 := (i 2).isLt
  have hN : cfg0.N = 8 := N_0
  obtain ⟨t, ht⟩ : ∃ t : Fin cfg0.N, t.val = 4 * (i 0).val + (i 1).val / 512 := ⟨⟨4 * (i 0).val + (i 1).val / 512, by omega⟩, rfl⟩
  obtain ⟨e0, e1, e2, e3, e4, e5, e6, e7⟩ := idx_facts0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2304 ≤ (i 2).val ∧ (i 2).val < win0_2.index t (2 : Fin 3) * 2304 + 2304; omega

/-- The array the region leaves is `G0`. -/
theorem qkv_eq : qkv m c = G0 m c := by
  unfold qkv
  exact (dat0 (Vr1 m) c).arrAt_eq_of_cover 2 (G0 m c) (fun t _ => flushed0_eq m c t) (cover0)

theorem qkv_apply (b : Fin 2) (s : Fin 2048) (n : Fin 2304) :
    qkv m c (ix3 b s n) = ∑ d : Fin 768, x m c (ix3 b s d) * (Vr1 m c main_v2 : S768x2304.Idx → EReal) (ix2 d n) :=
  congrFun (qkv_eq m c) (ix3 b s n)

/-! ## The three projections -/

/-- A column of the array that is a row of a weight holds that weight's projection. -/
theorem qkv_of_col (b : Fin 2) (s : Fin 2048) (n : Fin 2304) (w : Cert.Spec.Wt) (o : Fin 768)
    (hw : ∀ d : Fin 768, (Vr1 m c main_v2 : S768x2304.Idx → EReal) (ix2 d n) = w (ix2 o d)) :
    qkv m c (ix3 b s n) = Cert.Spec.proj (x m c) w b s o := by
  refine (qkv_apply m c b s n).trans ?_
  show (∑ d : Fin 768, x m c (ix3 b s d) * (Vr1 m c main_v2 : S768x2304.Idx → EReal) (ix2 d n) : EReal)
    = ∑ d : Fin 768, x m c (ix3 b s d) * w (ix2 o d)
  exact Finset.sum_congr rfl fun d _ => by rw [hw d]

/-- Columns `0 .. 767`: the queries. -/
theorem qkv_q (b : Fin 2) (s : Fin 2048) (o : Fin 768) :
    qkv m c (ix3 b s ⟨o.val, by omega⟩) = Cert.Spec.proj (x m c) (wq m c) b s o :=
  qkv_of_col m c b s _ (wq m c) o fun d => by
    have h1 : ((⟨o.val, by omega⟩ : Fin 2304).val < 768) := o.isLt
    rw [w2_apply, dif_pos h1]

/-- Columns `768 .. 1535`: the keys. -/
theorem qkv_k (b : Fin 2) (s : Fin 2048) (o : Fin 768) :
    qkv m c (ix3 b s ⟨768 + o.val, by omega⟩) = Cert.Spec.proj (x m c) (wk m c) b s o :=
  qkv_of_col m c b s _ (wk m c) o fun d => by
    have h1 : ¬ ((⟨768 + o.val, by omega⟩ : Fin 2304).val < 768) := by show ¬ (768 + o.val < 768); omega
    have h2 : ((⟨768 + o.val, by omega⟩ : Fin 2304).val < 1536) := by show 768 + o.val < 1536; omega
    rw [w2_apply, dif_neg h1, dif_pos h2]
    exact congrArg (wk m c) (funext fun a => by
      match a with
      | ⟨0, _⟩ => exact Fin.ext (by show 768 + o.val - 768 = o.val; omega)
      | ⟨1, _⟩ => rfl)

/-- Columns `1536 .. 2303`: the values. -/
theorem qkv_v (b : Fin 2) (s : Fin 2048) (o : Fin 768) :
    qkv m c (ix3 b s ⟨1536 + o.val, by omega⟩) = Cert.Spec.proj (x m c) (wv m c) b s o :=
  qkv_of_col m c b s _ (wv m c) o fun d => by
    have h1 : ¬ ((⟨1536 + o.val, by omega⟩ : Fin 2304).val < 768) := by show ¬ (1536 + o.val < 768); omega
    have h2 : ¬ ((⟨1536 + o.val, by omega⟩ : Fin 2304).val < 1536) := by show ¬ (1536 + o.val < 1536); omega
    rw [w2_apply, dif_neg h1, dif_neg h2]
    exact congrArg (wv m c) (funext fun a => by
      match a with
      | ⟨0, _⟩ => exact Fin.ext (by show 1536 + o.val - 1536 = o.val; omega)
      | ⟨1, _⟩ => rfl)

end Cert.KernelIdeal.Hand

end
-- ==== Proof.KIValue1.lean ====
import proofs.«423483_j75299366633636_3_alg».proof.Proof.KIFold
import proofs.«423483_j75299366633636_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

/-! The attention region's result array, index by index. At any contents of the core's buffers at the region's
entry, entry (b, s, n) of the result is the dot product, over the 768 concatenated head features, of the causal
softmax-weighted value sums of position s of batch b — each head's weighted sum divided once by its softmax
denominator — with column n of the weight array; queries, keys and values are the three 768-wide feature bands of the
query-key-value array. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b)) (c : Dev nD)

/-- The query-key-value array as the region finds it: batch × position × (768 query, 768 key, 768 value features). -/
abbrev Y : S2x2048x2304.Idx → EReal := V c main_v5
/-- The weight array as the region finds it: head feature × output feature. -/
abbrev Wp : S768x768.Idx → EReal := V c main_v4

/-- The three feature bands of the query-key-value array. -/
def Qf : Cert.Spec.QKV := fun b s i => Y V c (ix3 b s ⟨i.val, by have := i.isLt; omega⟩)
def Kf : Cert.Spec.QKV := fun b s i => Y V c (ix3 b s ⟨768 + i.val, by have := i.isLt; omega⟩)
def Vf : Cert.Spec.QKV := fun b s i => Y V c (ix3 b s ⟨1536 + i.val, by have := i.isLt; omega⟩)

/-! ## Small facts about the operations, read at an index -/

/-- The fold of the maximum from minus infinity is the supremum. -/
theorem fold_max_bot_eq_sup {ι : Type} (s : Finset ι) (f : ι → EReal) : s.fold max ⊥ f = s.sup f := by
  classical
  induction s using Finset.induction_on with
  | empty => rfl
  | insert a s ha ih => rw [Finset.fold_insert ha, Finset.sup_insert, ih]

/-- A column vector `[a] → [a, 1] → [a, b]` spread along the rows reads, at (p, q), entry p. -/
theorem colSpread_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ x h1) h2 (ix2 p q) = x (ix1 p) := by
  refine (broadcastTo_apply _ h2 (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply x h1 _ _ (by
      rw [Shape.rowMajor_val_one, Shape.rowMajor_val_two]
      show p.val = p.val * 1 + 0
      rw [Nat.mul_one, Nat.add_zero])

theorem eighth_eq : (Scalar.ofBits .f32 0x3E000000#32 : Ideal .f32) = Cert.Spec.eighth := by
  show Ideal.ofBits .f32 0x3E000000#32 = _
  unfold Cert.Spec.eighth
  simp [Ideal.ofBits, Ideal.ieee, -EReal.coe_mul]; norm_num

theorem negInf_eq : (FloatOps.ofBits .f32 0xFF800000#32 : Ideal .f32) = ⊥ := by
  show Ideal.ofBits .f32 0xFF800000#32 = _
  simp [Ideal.ofBits, Ideal.ieee]

theorem negBig_eq : (Named.named κ "neg_big" (0xFF333332#32 : BitVec FTy.f32.bits) : Ideal .f32) = ⊥ := rfl

/-! ## The three products read at an index -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q
theorem matmul_qk_apply {φ₁ φ₂ : FTy} (lhs : FVec Ideal S512x64 φ₁) (rhs : FVec Ideal S2048x64 φ₂) (p : Fin 512) (n : Fin 2048) :
    matmul dot_S512x64_S2048x64_S512x2048_1_1_0_0_n_n none lhs rhs (constant S512x2048 .f32 0x00000000#32) (ix2 p n)
      = ∑ k : Fin 64, lhs (ix2 p k) * rhs (ix2 n k) := by
  refine (Ideal.matmul_constant_zero_apply dot_S512x64_S2048x64_S512x2048_1_1_0_0_n_n none lhs rhs (ix2 p n)).trans ?_
  rw [← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p n) ((ValueIdx.contrEquiv1 dot_S512x64_S2048x64_S512x2048_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 p n) ((ValueIdx.contrEquiv1 dot_S512x64_S2048x64_S512x2048_1_1_0_0_n_n 64 rfl rfl).symm k) = ix2 n k := funext fun a => Fin.ext (by
    match a with
    | ⟨0, _⟩ => exact rhs_qk_0 _ _
    | ⟨1, _⟩ => exact (rhs_qk_1 _ _).trans hk)
  rw [el, er]
theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem matmul_pv_apply {φ₁ φ₂ : FTy} (lhs : FVec Ideal S512x2048 φ₁) (rhs : FVec Ideal S2048x64 φ₂) (p : Fin 512) (n : Fin 64) :
    matmul dot_S512x2048_S2048x64_S512x64_1_0_0_1_n_n none lhs rhs (constant S512x64 .f32 0x00000000#32) (ix2 p n)
      = ∑ k : Fin 2048, lhs (ix2 p k) * rhs (ix2 k n) := by
  refine (Ideal.matmul_constant_zero_apply dot_S512x2048_S2048x64_S512x64_1_0_0_1_n_n none lhs rhs (ix2 p n)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p n) ((ValueIdx.contrEquiv1 dot_S512x2048_S2048x64_S512x64_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 p n) ((ValueIdx.contrEquiv1 dot_S512x2048_S2048x64_S512x64_1_0_0_1_n_n 2048 rfl rfl).symm k) = ix2 k n := funext fun a => Fin.ext (by
    match a with
    | ⟨0, _⟩ => exact (rhs_pv_0 _ _).trans hk
    | ⟨1, _⟩ => exact rhs_pv_1 _ _)
  rw [el, er]
theorem lhs_ow_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem lhs_ow_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
theorem rhs_ow_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
theorem rhs_ow_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl
theorem matmul_ow_apply {φ₁ φ₂ : FTy} (lhs : FVec Ideal S512x768 φ₁) (rhs : FVec Ideal S768x768 φ₂) (p : Fin 512) (n : Fin 768) :
    matmul dot_S512x768_S768x768_S512x768_1_0_0_1_n_n none lhs rhs (constant S512x768 .f32 0x00000000#32) (ix2 p n)
      = ∑ k : Fin 768, lhs (ix2 p k) * rhs (ix2 k n) := by
  refine (Ideal.matmul_constant_zero_apply dot_S512x768_S768x768_S512x768_1_0_0_1_n_n none lhs rhs (ix2 p n)).trans ?_
  rw [← Equiv.sum_comp (ValueIdx.contrEquiv1 dot_S512x768_S768x768_S512x768_1_0_0_1_n_n 768 rfl rfl).symm]
  refine Finset.sum_congr rfl fun k _ => ?_
  have hk := ValueIdx.contrEquiv1_symm_val dot_S512x768_S768x768_S512x768_1_0_0_1_n_n 768 rfl rfl k
  have el : dot_S512x768_S768x768_S512x768_1_0_0_1_n_n.lhsIdx (ix2 p n) ((ValueIdx.contrEquiv1 dot_S512x768_S768x768_S512x768_1_0_0_1_n_n 768 rfl rfl).symm k) = ix2 p k := funext fun a => Fin.ext (by
    match a with
    | ⟨0, _⟩ => exact lhs_ow_0 _ _
    | ⟨1, _⟩ => exact (lhs_ow_1 _ _).trans hk)
  have er : dot_S512x768_S768x768_S512x768_1_0_0_1_n_n.rhsIdx (ix2 p n) ((ValueIdx.contrEquiv1 dot_S512x768_S768x768_S512x768_1_0_0_1_n_n 768 rfl rfl).symm k) = ix2 k n := funext fun a => Fin.ext (by
    match a with
    | ⟨0, _⟩ => exact (rhs_ow_0 _ _).trans hk
    | ⟨1, _⟩ => exact rhs_ow_1 _ _)
  rw [el, er]

/-! ## One head on a tile -/

/-- The scaled, masked scores of a tile of 512 queries against all 2048 keys: the dot products over the 64 features times
    one eighth, the masked ones replaced by the named constant (minus infinity). -/
def headS (mask : IVec S512x2048 1) (q : FVec Ideal S512x64 .bf16) (k : FVec Ideal S2048x64 .bf16) : FVec Ideal S512x2048 .f32 :=
  select mask
    (mulf (matmul dot_S512x64_S2048x64_S512x2048_1_1_0_0_n_n none q k (constant S512x2048 .f32 0x00000000#32))
      (broadcast S512x2048 (Scalar.ofBits .f32 0x3E000000#32)))
    (broadcast S512x2048 (Named.named κ "neg_big" 0xFF333332#32))

/-- The exponentials of the scores less their row's maximum. -/
def headE (mask : IVec S512x2048 1) (q : FVec Ideal S512x64 .bf16) (k : FVec Ideal S2048x64 .bf16) : FVec Ideal S512x2048 .f32 :=
  exp (subf (headS mask q k)
    (broadcastTo S512x2048 (shapeCast S512x1
      (multiReduction .maximumf [1] S512 (headS mask q k) 0xFF800000#32 reduces_S512x2048_S512 (.inl rfl) rfl)
      shapeCasts_S512_S512x1) broadcasts_S512x1_S512x2048))

/-- One head: the exponentials times the values, divided once by the row's sum of exponentials. -/
def headVal (mask : IVec S512x2048 1) (q : FVec Ideal S512x64 .bf16) (k v : FVec Ideal S2048x64 .bf16) : FVec Ideal S512x64 .f32 :=
  divf
    (matmul dot_S512x2048_S2048x64_S512x64_1_0_0_1_n_n none (truncf .bf16 (headE mask q k) bitsLt_bf16_f32) v
      (constant S512x64 .f32 0x00000000#32))
    (broadcastTo S512x64 (shapeCast S512x1
      (multiReduction .add [1] S512 (headE mask q k) 0x00000000#32 reduces_S512x2048_S512 (.inl rfl) rfl)
      shapeCasts_S512_S512x1) broadcasts_S512x1_S512x64)

/-- The scaled score of query row `r` against key `k'`, minus infinity where masked. -/
def hScore (mask : IVec S512x2048 1) (q : FVec Ideal S512x64 .bf16) (k : FVec Ideal S2048x64 .bf16) (r : Fin 512) (k' : Fin 2048) : EReal :=
  Scalar.select (mask (ix2 r k')) ((∑ e : Fin 64, q (ix2 r e) * k (ix2 k' e)) * Cert.Spec.eighth) ⊥

/-- The largest score of row `r`. -/
def hMax (mask : IVec S512x2048 1) (q : FVec Ideal S512x64 .bf16) (k : FVec Ideal S2048x64 .bf16) (r : Fin 512) : EReal :=
  Finset.univ.sup fun k' : Fin 2048 => hScore mask q k r k'

/-- The shifted exponential. -/
def hExp (mask : IVec S512x2048 1) (q : FVec Ideal S512x64 .bf16) (k : FVec Ideal S2048x64 .bf16) (r : Fin 512) (k' : Fin 2048) : EReal :=
  Ideal.exp (hScore mask q k r k' - hMax mask q k r)

theorem headS_apply (mask : IVec S512x2048 1) (q : FVec Ideal S512x64 .bf16) (k : FVec Ideal S2048x64 .bf16) (r : Fin 512) (k' : Fin 2048) :
    headS mask q k (ix2 r k') = hScore mask q k r k' := by
  unfold headS hScore
  show Scalar.select (mask (ix2 r k')) (matmul dot_S512x64_S2048x64_S512x2048_1_1_0_0_n_n none q k (constant S512x2048 .f32 0x00000000#32) (ix2 r k') * (Scalar.ofBits .f32 0x3E000000#32 : Ideal .f32)) (Named.named κ "neg_big" (0xFF333332#32 : BitVec FTy.f32.bits) : Ideal .f32) = _
  rw [matmul_qk_apply, eighth_eq, negBig_eq]

/-- The index with the key coordinate inserted after the row. -/
theorem lift_row (r : Fin 512) (k' : Fin 2048) : reduces_S512x2048_S512.lift (ix1 r) k' = ix2 r k' := by
  funext a
  match a with
  | ⟨0, _⟩ => rfl
  | ⟨1, _⟩ => rfl

theorem rowMax_apply (src : FVec Ideal S512x2048 .f32) (hφ : FKind.Formats .f32) (hacc : (0xFF800000#32 : BitVec FTy.f32.bits) = FKind.maximumf.neutral .f32 hφ) (r : Fin 512) :
    multiReduction .maximumf [1] S512 src 0xFF800000#32 reduces_S512x2048_S512 hφ hacc (ix1 r)
      = Finset.univ.sup fun k' : Fin 2048 => src (ix2 r k') := by
  refine (Ideal.multiReduction_maximumf_single src 0xFF800000#32 reduces_S512x2048_S512 hφ hacc (ix1 r)).trans ?_
  rw [negInf_eq]
  have e : (src ∘ reduces_S512x2048_S512.lift (ix1 r)) = fun k' : Fin 2048 => src (ix2 r k') :=
    funext fun k' => congrArg src (lift_row r k')
  rw [e]
  exact fold_max_bot_eq_sup (Finset.univ : Finset (Fin 2048)) fun k' => src (ix2 r k')

theorem rowSum_apply (src : FVec Ideal S512x2048 .f32) (hφ : FKind.Formats .f32) (hacc : (0x00000000#32 : BitVec FTy.f32.bits) = FKind.add.neutral .f32 hφ) (r : Fin 512) :
    multiReduction .add [1] S512 src 0x00000000#32 reduces_S512x2048_S512 hφ hacc (ix1 r)
      = ∑ k' : Fin 2048, src (ix2 r k') :=
  (Ideal.multiReduction_add_single src 0x00000000#32 reduces_S512x2048_S512 hφ hacc (ix1 r)).trans
    (Finset.sum_congr rfl fun k' _ => congrArg src (lift_row r k'))

theorem headE_apply (mask : IVec S512x2048 1) (q : FVec Ideal S512x64 .bf16) (k : FVec Ideal S2048x64 .bf16) (r : Fin 512) (k' : Fin 2048) :
    headE mask q k (ix2 r k') = hExp mask q k r k' := by
  unfold headE hExp hMax
  show Ideal.exp (headS mask q k (ix2 r k') - broadcastTo S512x2048 (shapeCast S512x1
      (multiReduction .maximumf [1] S512 (headS mask q k) 0xFF800000#32 reduces_S512x2048_S512 (.inl rfl) rfl)
      shapeCasts_S512_S512x1) broadcasts_S512x1_S512x2048 (ix2 r k')) = _
  rw [colSpread_apply, headS_apply]
  exact congrArg (fun m => Ideal.exp (hScore mask q k r k' - m))
    ((rowMax_apply (headS mask q k) _ _ r).trans (by simp only [headS_apply]))

theorem headVal_apply (mask : IVec S512x2048 1) (q : FVec Ideal S512x64 .bf16) (k v : FVec Ideal S2048x64 .bf16) (r : Fin 512) (d : Fin 64) :
    headVal mask q k v (ix2 r d)
      = Ideal.div (∑ k' : Fin 2048, hExp mask q k r k' * v (ix2 k' d)) (∑ k' : Fin 2048, hExp mask q k r k') := by
  unfold headVal
  show Ideal.div (matmul dot_S512x2048_S2048x64_S512x64_1_0_0_1_n_n none (truncf .bf16 (headE mask q k) bitsLt_bf16_f32) v
      (constant S512x64 .f32 0x00000000#32) (ix2 r d))
    (broadcastTo S512x64 (shapeCast S512x1
      (multiReduction .add [1] S512 (headE mask q k) 0x00000000#32 reduces_S512x2048_S512 (.inl rfl) rfl)
      shapeCasts_S512_S512x1) broadcasts_S512x1_S512x64 (ix2 r d)) = _
  rw [matmul_pv_apply, colSpread_apply]
  exact congrArg₂ Ideal.div
    (Finset.sum_congr rfl fun k' _ => by rw [truncf_apply, headE_apply])
    ((rowSum_apply (headE mask q k) _ _ r).trans (Finset.sum_congr rfl fun k' _ => headE_apply mask q k r k'))

/-! ## The causal mask -/

/-- The mask of the tile at grid coordinates `i` lets query row `r` (position `(i 1) * 512 + r`) see key `k` exactly when
    the key is not after the query. -/
theorem mask_apply (i : grid1.Coords) (r : Fin 512) (k : Fin 2048) :
    k1_pay2 i (ix2 r k) = 1#1 ↔ k.val ≤ (i 1).val * 512 + r.val := by
  have h4 : (i 1).val < 4 := (i 1).isLt
  have hr : r.val < 512 := r.isLt
  have hk : k.val < 2048 := k.isLt
  unfold k1_pay2
  show IntOp.cmpi .sge
      (broadcastTo S512x2048 (addi (broadcast S512x1 (Scalar.muli (BitVec.ofNat 32 (i 1).val) 512#32))
        (iota .tc S512x1 32 [0] iota_S512x1_d0_w32)) broadcasts_S512x1_S512x2048 (ix2 r k))
      (broadcastTo S512x2048 (iota .tc S1x2048 32 [1] iota_S1x2048_d1_w32) broadcasts_S1x2048_S512x2048 (ix2 r k)) = 1#1 ↔ _
  rw [broadcastTo_apply _ broadcasts_S512x1_S512x2048 (ix2 r k) (ix2 r (0 : Fin 1)) (fun ax => by
      match ax with
      | ⟨0, _⟩ => rfl
      | ⟨1, _⟩ => rfl),
    broadcastTo_apply _ broadcasts_S1x2048_S512x2048 (ix2 r k) (ix2 (0 : Fin 1) k) (fun ax => by
      match ax with
      | ⟨0, _⟩ => rfl
      | ⟨1, _⟩ => rfl)]
  show IntOp.cmpi .sge (IntOp.addi (Scalar.muli (BitVec.ofNat 32 (i 1).val) 512#32) (iota .tc S512x1 32 [0] iota_S512x1_d0_w32 (ix2 r (0 : Fin 1))))
      (iota .tc S1x2048 32 [1] iota_S1x2048_d1_w32 (ix2 (0 : Fin 1) k)) = 1#1 ↔ _
  rw [iota_single_apply, iota_single_apply]
  show IntOp.cmpi .sge (BitVec.ofNat 32 (i 1).val * 512#32 + BitVec.ofNat 32 r.val) (BitVec.ofNat 32 k.val) = 1#1 ↔ _
  have ea : (BitVec.ofNat 32 (i 1).val * 512#32 + BitVec.ofNat 32 r.val).toNat = (i 1).val * 512 + r.val := by
    simp only [BitVec.toNat_add, BitVec.toNat_mul, BitVec.toNat_ofNat]
    omega
  have eb : (BitVec.ofNat 32 k.val).toNat = k.val := by
    simp only [BitVec.toNat_ofNat]; omega
  rw [StableHlo.Predicate.sge_iff_toNat (by rw [ea]; omega) (by rw [eb]; omega), ea, eb]

/-- So a masked choice at (r, k) under that mask is the choice by the positions. -/
theorem select_mask (i : grid1.Coords) (r : Fin 512) (k : Fin 2048) (a b : EReal) :
    Scalar.select (k1_pay2 i (ix2 r k)) a b = if k.val ≤ (i 1).val * 512 + r.val then a else b := by
  by_cases h : k.val ≤ (i 1).val * 512 + r.val
  · rw [(mask_apply i r k).mpr h, select_one, if_pos h]
  · rw [eq_zero_of_ne_one (fun e => h ((mask_apply i r k).mp e)), select_zero, if_neg h]

/-! ## One head on a tile is the specification's head -/

/-- The position of row `r` of the query tile at grid coordinates `i`. -/
def qpos (i : grid1.Coords) (r : Fin 512) : Fin 2048 :=
  ⟨(i 1).val * 512 + r.val, by have h4 : (i 1).val < 4 := (i 1).isLt; have := r.isLt; omega⟩

/-- If a head's query slice holds the tile's rows of the queries of batch `b`, and its key and value slices hold all the
    batch's keys and values, at head `h`'s 64 features, then the head computed on the tile under the tile's causal mask is
    the specification's head at the row's position. -/
theorem headVal_eq_headKG (Q K W : Cert.Spec.QKV) (b : Fin 2) (h : Fin 12) (i : grid1.Coords)
    (q : FVec Ideal S512x64 .bf16) (k v : FVec Ideal S2048x64 .bf16)
    (hq : ∀ (r : Fin 512) (e : Fin 64), q (ix2 r e) = Q b (qpos i r) (Cert.Spec.col h e))
    (hk : ∀ (k' : Fin 2048) (e : Fin 64), k (ix2 k' e) = K b k' (Cert.Spec.col h e))
    (hv : ∀ (k' : Fin 2048) (d : Fin 64), v (ix2 k' d) = W b k' (Cert.Spec.col h d))
    (r : Fin 512) (d : Fin 64) :
    headVal (k1_pay2 i) q k v (ix2 r d) = Cert.Spec.headKG Q K W b h (qpos i r) d := by
  have hs : ∀ k' : Fin 2048, hScore (k1_pay2 i) q k r k' = Cert.Spec.scoreG Q K b h (qpos i r) k' := by
    intro k'
    unfold hScore Cert.Spec.scoreG Cert.Spec.dotG
    rw [select_mask]
    simp only [hq, hk]
    rfl
  have hm : hMax (k1_pay2 i) q k r = Cert.Spec.rowMaxG Q K b h (qpos i r) := by
    unfold hMax Cert.Spec.rowMaxG
    simp only [hs]
  have he : ∀ k' : Fin 2048, hExp (k1_pay2 i) q k r k' = Cert.Spec.pexpG Q K b h (qpos i r) k' := by
    intro k'
    unfold hExp Cert.Spec.pexpG
    rw [hs, hm]
  rw [headVal_apply]
  unfold Cert.Spec.headKG Cert.Spec.denomG
  simp only [he, hv]

/-! ## The 64-column slices of the tiles -/

/-- Columns `o .. o + 63` of the query tile, viewed as a 512 × 64 matrix. -/
theorem qslice_apply (x0 : Vec Ideal S1x512x768 .bf16) (o : ℕ)
    (inb : ∀ a, (![0, 0, o] : Fin 3 → ℕ) a + S1x512x64.size a ≤ S1x512x768.size a) (r : Fin 512) (e : Fin 64) (c : Fin 768)
    (hc : c.val = o + e.val) :
    shapeCast S512x64 (View.ld x0 (Rect.unit (s := S1x512x768) ![0, 0, o] S1x512x64.size inb)) shapeCasts_S1x512x64_S512x64 (ix2 r e)
      = x0 (ix3 (0 : Fin 1) r c) := by
  refine (shapeCast_1ab_ab_apply (a := 512) (b := 64) _ shapeCasts_S1x512x64_S512x64 r e).trans ?_
  show x0 ((Rect.unit (s := S1x512x768) ![0, 0, o] S1x512x64.size inb).idx (ix3 (0 : Fin 1) r e)) = _
  refine congrArg x0 (funext fun a => Fin.ext ?_)
  match a with
  | ⟨0, _⟩ => rfl
  | ⟨1, _⟩ => show 0 + 1 * r.val = r.val; omega
  | ⟨2, _⟩ => show o + 1 * e.val = c.val; omega

/-- Columns `o .. o + 63` of a key or value slab, viewed as a 2048 × 64 matrix. -/
theorem kslice_apply (x1 : Vec Ideal S1x2048x768 .bf16) (o : ℕ)
    (inb : ∀ a, (![0, 0, o] : Fin 3 → ℕ) a + S1x2048x64.size a ≤ S1x2048x768.size a) (r : Fin 2048) (e : Fin 64) (c : Fin 768)
    (hc : c.val = o + e.val) :
    shapeCast S2048x64 (View.ld x1 (Rect.unit (s := S1x2048x768) ![0, 0, o] S1x2048x64.size inb)) shapeCasts_S1x2048x64_S2048x64 (ix2 r e)
      = x1 (ix3 (0 : Fin 1) r c) := by
  refine (shapeCast_1ab_ab_apply (a := 2048) (b := 64) _ shapeCasts_S1x2048x64_S2048x64 r e).trans ?_
  show x1 ((Rect.unit (s := S1x2048x768) ![0, 0, o] S1x2048x64.size inb).idx (ix3 (0 : Fin 1) r e)) = _
  refine congrArg x1 (funext fun a => Fin.ext ?_)
  match a with
  | ⟨0, _⟩ => rfl
  | ⟨1, _⟩ => show 0 + 1 * r.val = r.val; omega
  | ⟨2, _⟩ => show o + 1 * e.val = c.val; omega

/-! ## The twelve heads of a tile -/

/-- Head `h` of the tile at grid coordinates `i`: the head computed on the `h`-th 64-column slices of the query tile
    `x0`, the key slab `x1` and the value slab `x2`. -/
def heads (i : grid1.Coords) (x0 : Vec Ideal S1x512x768 .bf16) (x1 x2 : Vec Ideal S1x2048x768 .bf16) : Fin 12 → FVec Ideal S512x64 .f32 :=
  ![headVal (k1_pay2 i) (shapeCast S512x64 (View.ld x0 rq0) shapeCasts_S1x512x64_S512x64) (shapeCast S2048x64 (View.ld x1 rk0) shapeCasts_S1x2048x64_S2048x64) (shapeCast S2048x64 (View.ld x2 rk0) shapeCasts_S1x2048x64_S2048x64),
    headVal (k1_pay2 i) (shapeCast S512x64 (View.ld x0 rq1) shapeCasts_S1x512x64_S512x64) (shapeCast S2048x64 (View.ld x1 rk1) shapeCasts_S1x2048x64_S2048x64) (shapeCast S2048x64 (View.ld x2 rk1) shapeCasts_S1x2048x64_S2048x64),
    headVal (k1_pay2 i) (shapeCast S512x64 (View.ld x0 rq2) shapeCasts_S1x512x64_S512x64) (shapeCast S2048x64 (View.ld x1 rk2) shapeCasts_S1x2048x64_S2048x64) (shapeCast S2048x64 (View.ld x2 rk2) shapeCasts_S1x2048x64_S2048x64),
    headVal (k1_pay2 i) (shapeCast S512x64 (View.ld x0 rq3) shapeCasts_S1x512x64_S512x64) (shapeCast S2048x64 (View.ld x1 rk3) shapeCasts_S1x2048x64_S2048x64) (shapeCast S2048x64 (View.ld x2 rk3) shapeCasts_S1x2048x64_S2048x64),
    headVal (k1_pay2 i) (shapeCast S512x64 (View.ld x0 rq4) shapeCasts_S1x512x64_S512x64) (shapeCast S2048x64 (View.ld x1 rk4) shapeCasts_S1x2048x64_S2048x64) (shapeCast S2048x64 (View.ld x2 rk4) shapeCasts_S1x2048x64_S2048x64),
    headVal (k1_pay2 i) (shapeCast S512x64 (View.ld x0 rq5) shapeCasts_S1x512x64_S512x64) (shapeCast S2048x64 (View.ld x1 rk5) shapeCasts_S1x2048x64_S2048x64) (shapeCast S2048x64 (View.ld x2 rk5) shapeCasts_S1x2048x64_S2048x64),
    headVal (k1_pay2 i) (shapeCast S512x64 (View.ld x0 rq6) shapeCasts_S1x512x64_S512x64) (shapeCast S2048x64 (View.ld x1 rk6) shapeCasts_S1x2048x64_S2048x64) (shapeCast S2048x64 (View.ld x2 rk6) shapeCasts_S1x2048x64_S2048x64),
    headVal (k1_pay2 i) (shapeCast S512x64 (View.ld x0 rq7) shapeCasts_S1x512x64_S512x64) (shapeCast S2048x64 (View.ld x1 rk7) shapeCasts_S1x2048x64_S2048x64) (shapeCast S2048x64 (View.ld x2 rk7) shapeCasts_S1x2048x64_S2048x64),
    headVal (k1_pay2 i) (shapeCast S512x64 (View.ld x0 rq8) shapeCasts_S1x512x64_S512x64) (shapeCast S2048x64 (View.ld x1 rk8) shapeCasts_S1x2048x64_S2048x64) (shapeCast S2048x64 (View.ld x2 rk8) shapeCasts_S1x2048x64_S2048x64),
    headVal (k1_pay2 i) (shapeCast S512x64 (View.ld x0 rq9) shapeCasts_S1x512x64_S512x64) (shapeCast S2048x64 (View.ld x1 rk9) shapeCasts_S1x2048x64_S2048x64) (shapeCast S2048x64 (View.ld x2 rk9) shapeCasts_S1x2048x64_S2048x64),
    headVal (k1_pay2 i) (shapeCast S512x64 (View.ld x0 rq10) shapeCasts_S1x512x64_S512x64) (shapeCast S2048x64 (View.ld x1 rk10) shapeCasts_S1x2048x64_S2048x64) (shapeCast S2048x64 (View.ld x2 rk10) shapeCasts_S1x2048x64_S2048x64),
    headVal (k1_pay2 i) (shapeCast S512x64 (View.ld x0 rq11) shapeCasts_S1x512x64_S512x64) (shapeCast S2048x64 (View.ld x1 rk11) shapeCasts_S1x2048x64_S2048x64) (shapeCast S2048x64 (View.ld x2 rk11) shapeCasts_S1x2048x64_S2048x64)]

/-- If the query tile holds the tile's rows of the queries of batch `b` and the two slabs hold the batch's keys and values,
    every head of the tile is the specification's head at the row's position. -/
theorem heads_apply (Q K W : Cert.Spec.QKV) (b : Fin 2) (i : grid1.Coords)
    (x0 : Vec Ideal S1x512x768 .bf16) (x1 x2 : Vec Ideal S1x2048x768 .bf16)
    (h0 : ∀ (r : Fin 512) (c : Fin 768), x0 (ix3 (0 : Fin 1) r c) = Q b (qpos i r) c)
    (h1 : ∀ (k' : Fin 2048) (c : Fin 768), x1 (ix3 (0 : Fin 1) k' c) = K b k' c)
    (h2 : ∀ (k' : Fin 2048) (c : Fin 768), x2 (ix3 (0 : Fin 1) k' c) = W b k' c)
    (h : Fin 12) (r : Fin 512) (d : Fin 64) :
    heads i x0 x1 x2 h (ix2 r d) = Cert.Spec.headKG Q K W b h (qpos i r) d := by
  match h with
  | ⟨0, _⟩ =>
    exact headVal_eq_headKG Q K W b ⟨0, by decide⟩ i _ _ _
      (fun r e => (qslice_apply x0 0 _ r e (Cert.Spec.col ⟨0, by decide⟩ e) (by show 0 * 64 + e.val = 0 + e.val; omega)).trans (h0 r _))
      (fun k' e => (kslice_apply x1 0 _ k' e (Cert.Spec.col ⟨0, by decide⟩ e) (by show 0 * 64 + e.val = 0 + e.val; omega)).trans (h1 k' _))
      (fun k' e => (kslice_apply x2 0 _ k' e (Cert.Spec.col ⟨0, by decide⟩ e) (by show 0 * 64 + e.val = 0 + e.val; omega)).trans (h2 k' _))
      r d
  | ⟨1, _⟩ =>
    exact headVal_eq_headKG Q K W b ⟨1, by decide⟩ i _ _ _
      (fun r e => (qslice_apply x0 64 _ r e (Cert.Spec.col ⟨1, by decide⟩ e) (by show 1 * 64 + e.val = 64 + e.val; omega)).trans (h0 r _))
      (fun k' e => (kslice_apply x1 64 _ k' e (Cert.Spec.col ⟨1, by decide⟩ e) (by show 1 * 64 + e.val = 64 + e.val; omega)).trans (h1 k' _))
      (fun k' e => (kslice_apply x2 64 _ k' e (Cert.Spec.col ⟨1, by decide⟩ e) (by show 1 * 64 + e.val = 64 + e.val; omega)).trans (h2 k' _))
      r d
  | ⟨2, _⟩ =>
    exact headVal_eq_headKG Q K W b ⟨2, by decide⟩ i _ _ _
      (fun r e => (qslice_apply x0 128 _ r e (Cert.Spec.col ⟨2, by decide⟩ e) (by show 2 * 64 + e.val = 128 + e.val; omega)).trans (h0 r _))
      (fun k' e => (kslice_apply x1 128 _ k' e (Cert.Spec.col ⟨2, by decide⟩ e) (by show 2 * 64 + e.val = 128 + e.val; omega)).trans (h1 k' _))
      (fun k' e => (kslice_apply x2 128 _ k' e (Cert.Spec.col ⟨2, by decide⟩ e) (by show 2 * 64 + e.val = 128 + e.val; omega)).trans (h2 k' _))
      r d
  | ⟨3, _⟩ =>
    exact headVal_eq_headKG Q K W b ⟨3, by decide⟩ i _ _ _
      (fun r e => (qslice_apply x0 192 _ r e (Cert.Spec.col ⟨3, by decide⟩ e) (by show 3 * 64 + e.val = 192 + e.val; omega)).trans (h0 r _))
      (fun k' e => (kslice_apply x1 192 _ k' e (Cert.Spec.col ⟨3, by decide⟩ e) (by show 3 * 64 + e.val = 192 + e.val; omega)).trans (h1 k' _))
      (fun k' e => (kslice_apply x2 192 _ k' e (Cert.Spec.col ⟨3, by decide⟩ e) (by show 3 * 64 + e.val = 192 + e.val; omega)).trans (h2 k' _))
      r d
  | ⟨4, _⟩ =>
    exact headVal_eq_headKG Q K W b ⟨4, by decide⟩ i _ _ _
      (fun r e => (qslice_apply x0 256 _ r e (Cert.Spec.col ⟨4, by decide⟩ e) (by show 4 * 64 + e.val = 256 + e.val; omega)).trans (h0 r _))
      (fun k' e => (kslice_apply x1 256 _ k' e (Cert.Spec.col ⟨4, by decide⟩ e) (by show 4 * 64 + e.val = 256 + e.val; omega)).trans (h1 k' _))
      (fun k' e => (kslice_apply x2 256 _ k' e (Cert.Spec.col ⟨4, by decide⟩ e) (by show 4 * 64 + e.val = 256 + e.val; omega)).trans (h2 k' _))
      r d
  | ⟨5, _⟩ =>
    exact headVal_eq_headKG Q K W b ⟨5, by decide⟩ i _ _ _
      (fun r e => (qslice_apply x0 320 _ r e (Cert.Spec.col ⟨5, by decide⟩ e) (by show 5 * 64 + e.val = 320 + e.val; omega)).trans (h0 r _))
      (fun k' e => (kslice_apply x1 320 _ k' e (Cert.Spec.col ⟨5, by decide⟩ e) (by show 5 * 64 + e.val = 320 + e.val; omega)).trans (h1 k' _))
      (fun k' e => (kslice_apply x2 320 _ k' e (Cert.Spec.col ⟨5, by decide⟩ e) (by show 5 * 64 + e.val = 320 + e.val; omega)).trans (h2 k' _))
      r d
  | ⟨6, _⟩ =>
    exact headVal_eq_headKG Q K W b ⟨6, by decide⟩ i _ _ _
      (fun r e => (qslice_apply x0 384 _ r e (Cert.Spec.col ⟨6, by decide⟩ e) (by show 6 * 64 + e.val = 384 + e.val; omega)).trans (h0 r _))
      (fun k' e => (kslice_apply x1 384 _ k' e (Cert.Spec.col ⟨6, by decide⟩ e) (by show 6 * 64 + e.val = 384 + e.val; omega)).trans (h1 k' _))
      (fun k' e => (kslice_apply x2 384 _ k' e (Cert.Spec.col ⟨6, by decide⟩ e) (by show 6 * 64 + e.val = 384 + e.val; omega)).trans (h2 k' _))
      r d
  | ⟨7, _⟩ =>
    exact headVal_eq_headKG Q K W b ⟨7, by decide⟩ i _ _ _
      (fun r e => (qslice_apply x0 448 _ r e (Cert.Spec.col ⟨7, by decide⟩ e) (by show 7 * 64 + e.val = 448 + e.val; omega)).trans (h0 r _))
      (fun k' e => (kslice_apply x1 448 _ k' e (Cert.Spec.col ⟨7, by decide⟩ e) (by show 7 * 64 + e.val = 448 + e.val; omega)).trans (h1 k' _))
      (fun k' e => (kslice_apply x2 448 _ k' e (Cert.Spec.col ⟨7, by decide⟩ e) (by show 7 * 64 + e.val = 448 + e.val; omega)).trans (h2 k' _))
      r d
  | ⟨8, _⟩ =>
    exact headVal_eq_headKG Q K W b ⟨8, by decide⟩ i _ _ _
      (fun r e => (qslice_apply x0 512 _ r e (Cert.Spec.col ⟨8, by decide⟩ e) (by show 8 * 64 + e.val = 512 + e.val; omega)).trans (h0 r _))
      (fun k' e => (kslice_apply x1 512 _ k' e (Cert.Spec.col ⟨8, by decide⟩ e) (by show 8 * 64 + e.val = 512 + e.val; omega)).trans (h1 k' _))
      (fun k' e => (kslice_apply x2 512 _ k' e (Cert.Spec.col ⟨8, by decide⟩ e) (by show 8 * 64 + e.val = 512 + e.val; omega)).trans (h2 k' _))
      r d
  | ⟨9, _⟩ =>
    exact headVal_eq_headKG Q K W b ⟨9, by decide⟩ i _ _ _
      (fun r e => (qslice_apply x0 576 _ r e (Cert.Spec.col ⟨9, by decide⟩ e) (by show 9 * 64 + e.val = 576 + e.val; omega)).trans (h0 r _))
      (fun k' e => (kslice_apply x1 576 _ k' e (Cert.Spec.col ⟨9, by decide⟩ e) (by show 9 * 64 + e.val = 576 + e.val; omega)).trans (h1 k' _))
      (fun k' e => (kslice_apply x2 576 _ k' e (Cert.Spec.col ⟨9, by decide⟩ e) (by show 9 * 64 + e.val = 576 + e.val; omega)).trans (h2 k' _))
      r d
  | ⟨10, _⟩ =>
    exact headVal_eq_headKG Q K W b ⟨10, by decide⟩ i _ _ _
      (fun r e => (qslice_apply x0 640 _ r e (Cert.Spec.col ⟨10, by decide⟩ e) (by show 10 * 64 + e.val = 640 + e.val; omega)).trans (h0 r _))
      (fun k' e => (kslice_apply x1 640 _ k' e (Cert.Spec.col ⟨10, by decide⟩ e) (by show 10 * 64 + e.val = 640 + e.val; omega)).trans (h1 k' _))
      (fun k' e => (kslice_apply x2 640 _ k' e (Cert.Spec.col ⟨10, by decide⟩ e) (by show 10 * 64 + e.val = 640 + e.val; omega)).trans (h2 k' _))
      r d
  | ⟨11, _⟩ =>
    exact headVal_eq_headKG Q K W b ⟨11, by decide⟩ i _ _ _
      (fun r e => (qslice_apply x0 704 _ r e (Cert.Spec.col ⟨11, by decide⟩ e) (by show 11 * 64 + e.val = 704 + e.val; omega)).trans (h0 r _))
      (fun k' e => (kslice_apply x1 704 _ k' e (Cert.Spec.col ⟨11, by decide⟩ e) (by show 11 * 64 + e.val = 704 + e.val; omega)).trans (h1 k' _))
      (fun k' e => (kslice_apply x2 704 _ k' e (Cert.Spec.col ⟨11, by decide⟩ e) (by show 11 * 64 + e.val = 704 + e.val; omega)).trans (h2 k' _))
      r d

/-! ## The tile's payload: the heads side by side, times the weight -/

/-- Twelve 512 × 64 matrices laid side by side read, at (r, c), matrix `c / 64` at (r, c % 64). -/
theorem concat_apply (g : Fin 12 → FVec Ideal S512x64 .f32) (r : Fin 512) (c : Fin 768) :
    concatenate S512x768 1 [⟨S512x64, g 0⟩, ⟨S512x64, g 1⟩, ⟨S512x64, g 2⟩, ⟨S512x64, g 3⟩, ⟨S512x64, g 4⟩, ⟨S512x64, g 5⟩,
        ⟨S512x64, g 6⟩, ⟨S512x64, g 7⟩, ⟨S512x64, g 8⟩, ⟨S512x64, g 9⟩, ⟨S512x64, g 10⟩, ⟨S512x64, g 11⟩]
        concatenates_S512x64_S512x64_S512x64_S512x64_S512x64_S512x64_S512x64_S512x64_S512x64_S512x64_S512x64_S512x64_S512x768_d1 (ix2 r c)
      = g (Cert.Spec.headOf c) (ix2 r (Cert.Spec.featOf c)) :=
  concatenate_ofFn_apply (t := S512x768) (s₁ := S512x64) (1 : Fin 2) g concatenates_S512x64_S512x64_S512x64_S512x64_S512x64_S512x64_S512x64_S512x64_S512x64_S512x64_S512x64_S512x64_S512x768_d1 rfl 64 rfl (ix2 r c) (Cert.Spec.headOf c) rfl
    (ix2 r (Cert.Spec.featOf c)) rfl (fun b hb => by
      match b with
      | ⟨0, _⟩ => rfl
      | ⟨1, _⟩ => exact absurd rfl hb)

/-- The payload written to the output tile, at row `r` and output feature `n`: the sum over the 768 concatenated head
    features of the head's entry times the weight's. -/
theorem pay1_apply (v7 : IVec S512x2048 1) (g0 g1 g2 g3 g4 g5 g6 g7 g8 g9 g10 : FVec Ideal S512x64 .f32)
    (v250 : Vec Ideal S1x512x64 .bf16) (v252 v254 : Vec Ideal S1x2048x64 .bf16) (v274 : Vec Ideal S768x768 .bf16) (r : Fin 512) (n : Fin 768) :
    k1_pay1 v7 g0 g1 g2 g3 g4 g5 g6 g7 g8 g9 g10 v250 v252 v254 v274 (ix3 (0 : Fin 1) r n)
      = ∑ c : Fin 768, (![g0, g1, g2, g3, g4, g5, g6, g7, g8, g9, g10, (headVal v7 (shapeCast S512x64 v250 shapeCasts_S1x512x64_S512x64) (shapeCast S2048x64 v252 shapeCasts_S1x2048x64_S2048x64) (shapeCast S2048x64 v254 shapeCasts_S1x2048x64_S2048x64))] (Cert.Spec.headOf c)) (ix2 r (Cert.Spec.featOf c)) * v274 (ix2 c n) := by
  unfold k1_pay1
  show shapeCast S1x512x768 (matmul dot_S512x768_S768x768_S512x768_1_0_0_1_n_n none
      (truncf .bf16 (concatenate S512x768 1 [⟨S512x64, g0⟩, ⟨S512x64, g1⟩, ⟨S512x64, g2⟩, ⟨S512x64, g3⟩, ⟨S512x64, g4⟩, ⟨S512x64, g5⟩, ⟨S512x64, g6⟩, ⟨S512x64, g7⟩, ⟨S512x64, g8⟩, ⟨S512x64, g9⟩, ⟨S512x64, g10⟩, ⟨S512x64, (headVal v7 (shapeCast S512x64 v250 shapeCasts_S1x512x64_S512x64) (shapeCast S2048x64 v252 shapeCasts_S1x2048x64_S2048x64) (shapeCast S2048x64 v254 shapeCasts_S1x2048x64_S2048x64))⟩]
        concatenates_S512x64_S512x64_S512x64_S512x64_S512x64_S512x64_S512x64_S512x64_S512x64_S512x64_S512x64_S512x64_S512x768_d1) bitsLt_bf16_f32)
      (shapeCast S768x768 v274 shapeCasts_S768x768_S768x768) (constant S512x768 .f32 0x00000000#32)) shapeCasts_S512x768_S1x512x768 (ix3 (0 : Fin 1) r n) = _
  rw [shapeCast_ab_1ab_apply, matmul_ow_apply]
  refine Finset.sum_congr rfl fun c _ => ?_
  rw [truncf_apply, shapeCast_self]
  exact congrArg (· * v274 (ix2 c n)) (concat_apply ![g0, g1, g2, g3, g4, g5, g6, g7, g8, g9, g10, (headVal v7 (shapeCast S512x64 v250 shapeCasts_S1x512x64_S512x64) (shapeCast S2048x64 v252 shapeCasts_S1x2048x64_S2048x64) (shapeCast S2048x64 v254 shapeCasts_S1x2048x64_S2048x64))] r c)

/-! ## The output tile at an index -/

/-- What the body leaves at row `r`, output feature `n` of its output tile, when the query tile holds the tile's rows of the
    queries of batch `b` and the slabs the batch's keys and values: the output projection of the concatenated heads at the
    row's position, against the weight tile. -/
theorem tile_apply (Q K W : Cert.Spec.QKV) (b : Fin 2) (i : grid1.Coords)
    (x0 : Vec Ideal S1x512x768 .bf16) (x1 x2 : Vec Ideal S1x2048x768 .bf16) (x3 : Vec Ideal S768x768 .bf16)
    (h0 : ∀ (r : Fin 512) (c : Fin 768), x0 (ix3 (0 : Fin 1) r c) = Q b (qpos i r) c)
    (h1 : ∀ (k' : Fin 2048) (c : Fin 768), x1 (ix3 (0 : Fin 1) k' c) = K b k' c)
    (h2 : ∀ (k' : Fin 2048) (c : Fin 768), x2 (ix3 (0 : Fin 1) k' c) = W b k' c)
    (r : Fin 512) (n : Fin 768) :
    k1_pay1 (k1_pay2 i)
      (k1_pay3 i (View.ld x0 rq0) (View.ld x1 rk0) (View.ld x2 rk0))
      (k1_pay6 (k1_pay2 i) (k1_pay4 (View.ld x0 rq1)) (k1_pay5 (View.ld x1 rk1)) (View.ld x2 rk1))
      (k1_pay10 (k1_pay8 (k1_pay2 i) (View.ld x0 rq2) (View.ld x1 rk2)) (k1_pay9 (k1_pay2 i) (View.ld x0 rq2) (View.ld x1 rk2) (View.ld x2 rk2)))
      (k1_pay11 (k1_pay2 i) (View.ld x0 rq3) (View.ld x1 rk3) (View.ld x2 rk3))
      (k1_pay14 (k1_pay2 i) (k1_pay12 (View.ld x2 rk4)) (k1_pay13 (View.ld x0 rq4) (View.ld x1 rk4)) (Named.named κ "neg_big" 0xFF333332#32))
      (k1_pay15 (k1_pay2 i) (View.ld x0 rq5) (View.ld x1 rk5) (View.ld x2 rk5))
      (k1_pay17 (k1_pay2 i) (k1_pay16 (View.ld x0 rq6)) (View.ld x1 rk6) (View.ld x2 rk6))
      (k1_pay20 (k1_pay18 (View.ld x2 rk7)) (k1_pay19 (k1_pay2 i) (View.ld x0 rq7) (View.ld x1 rk7)))
      (k1_pay21 (k1_pay2 i) (View.ld x0 rq8) (View.ld x1 rk8) (View.ld x2 rk8))
      (k1_pay25 (k1_pay2 i) (k1_pay22 (View.ld x0 rq9)) (k1_pay23 (View.ld x1 rk9)) (k1_pay24 (View.ld x2 rk9)) (constant S512x2048 .f32 0x00000000#32))
      (k1_pay26 (k1_pay2 i) (View.ld x0 rq10) (View.ld x1 rk10) (View.ld x2 rk10))
      (View.ld x0 rq11) (View.ld x1 rk11) (View.ld x2 rk11) x3 (ix3 (0 : Fin 1) r n)
      = ∑ cc : Fin 768, Cert.Spec.attnKG Q K W b (qpos i r) cc * x3 (ix2 cc n) := by
  refine (pay1_apply (k1_pay2 i)
      (k1_pay3 i (View.ld x0 rq0) (View.ld x1 rk0) (View.ld x2 rk0))
      (k1_pay6 (k1_pay2 i) (k1_pay4 (View.ld x0 rq1)) (k1_pay5 (View.ld x1 rk1)) (View.ld x2 rk1))
      (k1_pay10 (k1_pay8 (k1_pay2 i) (View.ld x0 rq2) (View.ld x1 rk2)) (k1_pay9 (k1_pay2 i) (View.ld x0 rq2) (View.ld x1 rk2) (View.ld x2 rk2)))
      (k1_pay11 (k1_pay2 i) (View.ld x0 rq3) (View.ld x1 rk3) (View.ld x2 rk3))
      (k1_pay14 (k1_pay2 i) (k1_pay12 (View.ld x2 rk4)) (k1_pay13 (View.ld x0 rq4) (View.ld x1 rk4)) (Named.named κ "neg_big" 0xFF333332#32))
      (k1_pay15 (k1_pay2 i) (View.ld x0 rq5) (View.ld x1 rk5) (View.ld x2 rk5))
      (k1_pay17 (k1_pay2 i) (k1_pay16 (View.ld x0 rq6)) (View.ld x1 rk6) (View.ld x2 rk6))
      (k1_pay20 (k1_pay18 (View.ld x2 rk7)) (k1_pay19 (k1_pay2 i) (View.ld x0 rq7) (View.ld x1 rk7)))
      (k1_pay21 (k1_pay2 i) (View.ld x0 rq8) (View.ld x1 rk8) (View.ld x2 rk8))
      (k1_pay25 (k1_pay2 i) (k1_pay22 (View.ld x0 rq9)) (k1_pay23 (View.ld x1 rk9)) (k1_pay24 (View.ld x2 rk9)) (constant S512x2048 .f32 0x00000000#32))
      (k1_pay26 (k1_pay2 i) (View.ld x0 rq10) (View.ld x1 rk10) (View.ld x2 rk10))
      (View.ld x0 rq11) (View.ld x1 rk11) (View.ld x2 rk11) x3 r n).trans ?_
  refine Finset.sum_congr rfl fun cc _ => ?_
  refine congrArg (· * x3 (ix2 cc n)) ?_
  exact heads_apply Q K W b i x0 x1 x2 h0 h1 h2 (Cert.Spec.headOf cc) r (Cert.Spec.featOf cc)

/-! ## From the blocks to the array -/

theorem hz3_1 : (![0, 0, 0] : Fin 3 → Nat) = fun _ => 0 := funext fun a => by fin_cases a <;> rfl
theorem hz2_1 : (![0, 0] : Fin 2 → Nat) = fun _ => 0 := funext fun a => by fin_cases a <;> rfl

/-- The printed index maps, decided over the grid: at the point with coordinates (b, qi) the query window's block is
    (b, qi, 0), the key window's (b, 0, 1), the value window's (b, 0, 2), the weight's (0, 0) and the output's (b, qi, 0). -/
theorem idx_facts1 : ∀ t : Fin cfg1.N,
    win1_0.index t (0 : Fin 3) = (grid1.coords t 0).val ∧ win1_0.index t (1 : Fin 3) = (grid1.coords t 1).val ∧ win1_0.index t (2 : Fin 3) = 0
    ∧ win1_1.index t (0 : Fin 3) = (grid1.coords t 0).val ∧ win1_1.index t (1 : Fin 3) = 0 ∧ win1_1.index t (2 : Fin 3) = 1
    ∧ win1_2.index t (0 : Fin 3) = (grid1.coords t 0).val ∧ win1_2.index t (1 : Fin 3) = 0 ∧ win1_2.index t (2 : Fin 3) = 2
    ∧ win1_3.index t (0 : Fin 2) = 0 ∧ win1_3.index t (1 : Fin 2) = 0
    ∧ win1_4.index t (0 : Fin 3) = (grid1.coords t 0).val ∧ win1_4.index t (1 : Fin 3) = (grid1.coords t 1).val ∧ win1_4.index t (2 : Fin 3) = 0 :=
  (by decide +kernel : ∀ t : Fin grid1.N, _)

/-- Every (batch, row tile) is some point's. -/
theorem idx_onto1 : ∀ (q0 : Fin 2) (q1 : Fin 4), ∃ t : Fin cfg1.N, win1_4.index t = ![q0.val, q1.val, 0] :=
  (by decide +kernel : ∀ (q0 : Fin 2) (q1 : Fin 4), ∃ t : Fin grid1.N, win1_4.index t = ![q0.val, q1.val, 0])

/-- The four input blocks at point `t`, at their literal types. -/
abbrev xq (t : Fin cfg1.N) : Vec Ideal S1x512x768 .bf16 := iblk1 V c 0 t
abbrev xk (t : Fin cfg1.N) : Vec Ideal S1x2048x768 .bf16 := iblk1 V c 1 t
abbrev xv (t : Fin cfg1.N) : Vec Ideal S1x2048x768 .bf16 := iblk1 V c 2 t
abbrev xw (t : Fin cfg1.N) : Vec Ideal S768x768 .bf16 := iblk1 V c 3 t

/-- The query block at point `t` holds the tile's rows of the queries of the point's batch. -/
theorem xq_apply (t : Fin cfg1.N) (r : Fin 512) (cc : Fin 768) :
    xq V c t (ix3 (0 : Fin 1) r cc) = Qf V c (grid1.coords t 0) (qpos (grid1.coords t) r) cc := by
  obtain ⟨e0, e1, e2, -⟩ := idx_facts1 t
  show V c main_v5 (((cfg1.win 0).blk t).view.emb (ix3 (0 : Fin 1) r cc)) = V c main_v5 _
  refine congrArg (V c main_v5) (funext fun a => Fin.ext ?_)
  match a with
  | ⟨0, _⟩ => show win1_0.index t (0 : Fin 3) * 1 + 1 * 0 = (grid1.coords t 0).val; omega
  | ⟨1, _⟩ => show win1_0.index t (1 : Fin 3) * 512 + 1 * r.val = (grid1.coords t 1).val * 512 + r.val; omega
  | ⟨2, _⟩ => show win1_0.index t (2 : Fin 3) * 768 + 1 * cc.val = cc.val; omega

/-- The key block holds the keys of the point's batch. -/
theorem xk_apply (t : Fin cfg1.N) (k' : Fin 2048) (cc : Fin 768) :
    xk V c t (ix3 (0 : Fin 1) k' cc) = Kf V c (grid1.coords t 0) k' cc := by
  obtain ⟨-, -, -, e0, e1, e2, -⟩ := idx_facts1 t
  show V c main_v5 (((cfg1.win 1).blk t).view.emb (ix3 (0 : Fin 1) k' cc)) = V c main_v5 _
  refine congrArg (V c main_v5) (funext fun a => Fin.ext ?_)
  match a with
  | ⟨0, _⟩ => show win1_1.index t (0 : Fin 3) * 1 + 1 * 0 = (grid1.coords t 0).val; omega
  | ⟨1, _⟩ => show win1_1.index t (1 : Fin 3) * 2048 + 1 * k'.val = k'.val; omega
  | ⟨2, _⟩ => show win1_1.index t (2 : Fin 3) * 768 + 1 * cc.val = 768 + cc.val; omega

/-- The value block holds the values of the point's batch. -/
theorem xv_apply (t : Fin cfg1.N) (k' : Fin 2048) (cc : Fin 768) :
    xv V c t (ix3 (0 : Fin 1) k' cc) = Vf V c (grid1.coords t 0) k' cc := by
  obtain ⟨-, -, -, -, -, -, e0, e1, e2, -⟩ := idx_facts1 t
  show V c main_v5 (((cfg1.win 2).blk t).view.emb (ix3 (0 : Fin 1) k' cc)) = V c main_v5 _
  refine congrArg (V c main_v5) (funext fun a => Fin.ext ?_)
  match a with
  | ⟨0, _⟩ => show win1_2.index t (0 : Fin 3) * 1 + 1 * 0 = (grid1.coords t 0).val; omega
  | ⟨1, _⟩ => show win1_2.index t (1 : Fin 3) * 2048 + 1 * k'.val = k'.val; omega
  | ⟨2, _⟩ => show win1_2.index t (2 : Fin 3) * 768 + 1 * cc.val = 1536 + cc.val; omega

/-- The weight block is the whole weight array. -/
theorem xw_apply (t : Fin cfg1.N) (cc n : Fin 768) : xw V c t (ix2 cc n) = Wp V c (ix2 cc n) := by
  obtain ⟨-, -, -, -, -, -, -, -, -, e0, e1, -⟩ := idx_facts1 t
  show V c main_v4 (((cfg1.win 3).blk t).view.emb (ix2 cc n)) = V c main_v4 _
  refine congrArg (V c main_v4) (funext fun a => Fin.ext ?_)
  match a with
  | ⟨0, _⟩ => show win1_3.index t (0 : Fin 2) * 768 + 1 * cc.val = cc.val; omega
  | ⟨1, _⟩ => show win1_3.index t (1 : Fin 2) * 768 + 1 * n.val = n.val; omega

/-- The result array: entry (b, s, n) is the output projection of the concatenated heads at position s of batch b. -/
def G1 : S2x2048x768.Idx → EReal := fun j =>
  ∑ i : Fin 768, Cert.Spec.attnKG (Qf V c) (Kf V c) (Vf V c) (j 0) (j 1) i * Wp V c (ix2 i (j 2))

/-- Where row `r`, feature `n` of the output block at point `t` sits in the result array. -/
theorem oemb_apply (t : Fin cfg1.N) (r : Fin 512) (n : Fin 768) :
    ((cfg1.win 4).blk t).view.emb (ix3 (0 : Fin 1) r n) = (ix3 (grid1.coords t 0) (qpos (grid1.coords t) r) n : S2x2048x768.Idx) := by
  obtain ⟨-, -, -, -, -, -, -, -, -, -, -, e0, e1, e2⟩ := idx_facts1 t
  refine funext fun a => Fin.ext ?_
  match a with
  | ⟨0, _⟩ => show win1_4.index t (0 : Fin 3) * 1 + 1 * 0 = (grid1.coords t 0).val; omega
  | ⟨1, _⟩ => show win1_4.index t (1 : Fin 3) * 512 + 1 * r.val = (grid1.coords t 1).val * 512 + r.val; omega
  | ⟨2, _⟩ => show win1_4.index t (2 : Fin 3) * 768 + 1 * n.val = n.val; omega

/-- What point `t` writes back is block `t` of `G1`. -/
theorem flushed1_eq (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz3_1]
  simp only [View.ld_unit_zero (S := S768x768) hz2_1]
  funext y
  obtain ⟨r, n, rfl⟩ : ∃ (r : Fin 512) (n : Fin 768), y = ix3 (0 : Fin 1) r n :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  show _ = G1 V c (((cfg1.win 4).blk t).view.emb (ix3 (0 : Fin 1) r n))
  rw [oemb_apply]
  refine (tile_apply (Qf V c) (Kf V c) (Vf V c) (grid1.coords t 0) (grid1.coords t) (xq V c t) (xk V c t) (xv V c t) (xw V c t)
    (xq_apply V c t) (xk_apply V c t) (xv_apply V c t) r n).trans ?_
  exact Finset.sum_congr rfl fun cc _ => by rw [xw_apply]

/-- An index of the result is in point `t`'s block iff each coordinate is in the block's range on its axis. -/
theorem mem_blk1 (t : Fin cfg1.N) (i : S2x2048x768.Idx) :
    i ∈ ((cfg1.win 4).blk t).view.set ↔ ∀ a : Fin 3, win1_4.index t a * S1x512x768.size a ≤ (i a).val ∧ (i a).val < win1_4.index t a * S1x512x768.size a + S1x512x768.size a := by
  show i ∈ ((View.whole main_v6).slice (win1_4.rect t)).set ↔ _
  rw [View.set_slice_whole, Rect.mem_set_unit]
  exact Iff.rfl

/-- Every index of the result is in some point's block: the point of its batch and row tile. -/
theorem cover1 (i : S2x2048x768.Idx) : ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 768 := (i 2).isLt
  obtain ⟨t, ht⟩ := idx_onto1 ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 768 ≤ (i 2).val ∧ (i 2).val < win1_4.index t (2 : Fin 3) * 768 + 768; omega

/-- The result array after the region. -/
theorem res1_eq : (dat1 V c).arrAt 4 cfg1.N = G1 V c :=
  (dat1 V c).arrAt_eq_of_cover 4 (G1 V c) (fun t _ => flushed1_eq V c t) (cover1)

theorem res_apply (j : S2x2048x768.Idx) :
    (dat1 V c).arrAt 4 cfg1.N j
      = ∑ i : Fin 768, Cert.Spec.attnKG (Qf V c) (Kf V c) (Vf V c) (j 0) (j 1) i * Wp V c (ix2 i (j 2)) :=
  congrFun (res1_eq V c) j

end Cert.KernelIdeal.Hand

end
-- ==== Proof.Law.lean ====
import proofs.«423483_j75299366633636_3_alg».proof.Proof.Spec
import Mathlib.Data.EReal.Operations
import Mathlib.Data.EReal.Inv

/-! The one law of arithmetic that separates the two forms of causal attention in `Cert.Spec`: dividing the
weighted sum of the values once by the softmax denominator equals dividing every weight first. Over the extended
reals this is not unconditional (a zero or infinite denominator breaks it), so the work is to show that with real
queries, keys and values every quantity in sight is a real and the denominator is a positive real:

* an unscaled score is a finite sum of products of reals, hence a real;
* a score is a real at a key not after the query and minus infinity after it; key `0` is never after the query;
* the row maximum is attained (a finite nonempty supremum in a linear order), at a real score because it dominates
  the real score of key `0`; so it is a real;
* a shifted exponential is `exp (real - real)`, a positive real, or `exp (⊥ - real) = exp ⊥ = 0`; at key `0` it is
  positive; so the denominator, a sum of nonnegative reals with a positive term, is a positive real `L`;
* then both forms are the coercion of a real, and `(∑ p v) * L⁻¹ = ∑ (p * L⁻¹) * v` in the reals.

The projections of real activations by real weights are real (finite sums of products of reals again), which
instantiates the law at the program's queries, keys and values. -/

namespace Cert.Law

open Cert.Spec Idealize.ShloMosaic Idealize.ShloMosaic.ValueIdx

/-- The coercion of the reals into the extended reals commutes with finite sums. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of products of reals is a real. -/
theorem sum_mul_real {ι : Type*} (s : Finset ι) (f g : ι → EReal)
    (hf : ∀ i, ∃ r : ℝ, f i = (r : EReal)) (hg : ∀ i, ∃ r : ℝ, g i = (r : EReal)) :
    ∃ r : ℝ, ∑ i ∈ s, f i * g i = (r : EReal) := by
  choose fr hfr using hf
  choose gr hgr using hg
  refine ⟨∑ i ∈ s, fr i * gr i, ?_⟩
  rw [← coe_sum]
  refine Finset.sum_congr rfl fun i _ => ?_
  rw [hfr, hgr, EReal.coe_mul]

/-- A projection of real activations by a real weight is real. -/
theorem proj_real (x : Act) (w : Wt) (hx : ∀ i, ∃ r : ℝ, x i = (r : EReal)) (hw : ∀ i, ∃ r : ℝ, w i = (r : EReal))
    (b : Fin 2) (s : Fin 2048) (o : Fin 768) : ∃ r : ℝ, proj x w b s o = (r : EReal) :=
  sum_mul_real Finset.univ (fun d => x (ix3 b s d)) (fun d => w (ix2 o d)) (fun _ => hx _) (fun _ => hw _)

section

variable (Q K V : QKV)
  (hQ : ∀ b s i, ∃ r : ℝ, Q b s i = (r : EReal)) (hK : ∀ b s i, ∃ r : ℝ, K b s i = (r : EReal))
  (hV : ∀ b s i, ∃ r : ℝ, V b s i = (r : EReal))

include hQ hK in
/-- An unscaled score is real. -/
theorem dotG_real (b : Fin 2) (h : Fin 12) (q k : Fin 2048) : ∃ r : ℝ, dotG Q K b h q k = (r : EReal) :=
  sum_mul_real Finset.univ (fun d => Q b q (col h d)) (fun d => K b k (col h d)) (fun _ => hQ _ _ _) (fun _ => hK _ _ _)

include hQ hK in
/-- The score of a key not after the query is real. -/
theorem scoreG_of_le (b : Fin 2) (h : Fin 12) (q k : Fin 2048) (hkq : k.val ≤ q.val) :
    ∃ r : ℝ, scoreG Q K b h q k = (r : EReal) := by
  obtain ⟨r, hr⟩ := dotG_real Q K hQ hK b h q k
  refine ⟨r * (1 / 8), ?_⟩
  rw [scoreG, if_pos hkq, hr, eighth, EReal.coe_mul]

/-- The score of a key after the query is minus infinity. -/
theorem scoreG_of_not_le (b : Fin 2) (h : Fin 12) (q k : Fin 2048) (hkq : ¬ k.val ≤ q.val) :
    scoreG Q K b h q k = ⊥ := by
  rw [scoreG, if_neg hkq]

include hQ hK in
/-- The row maximum is real: it is attained, and it dominates the real score of key `0`. -/
theorem rowMaxG_real (b : Fin 2) (h : Fin 12) (q : Fin 2048) : ∃ M : ℝ, rowMaxG Q K b h q = (M : EReal) := by
  obtain ⟨k, -, hk'⟩ := Finset.exists_mem_eq_sup Finset.univ ⟨(0 : Fin 2048), Finset.mem_univ _⟩
    (fun k => scoreG Q K b h q k)
  by_cases hkq : k.val ≤ q.val
  · obtain ⟨r, hr⟩ := scoreG_of_le Q K hQ hK b h q k hkq
    exact ⟨r, by rw [rowMaxG, hk', hr]⟩
  · exfalso
    obtain ⟨r, hr⟩ := scoreG_of_le Q K hQ hK b h q 0 (Nat.zero_le _)
    have h0 : scoreG Q K b h q 0 ≤ rowMaxG Q K b h q :=
      Finset.le_sup (f := fun k => scoreG Q K b h q k) (Finset.mem_univ 0)
    rw [rowMaxG, hk', hr] at h0
    have h1 : scoreG Q K b h q k = ⊥ := scoreG_of_not_le Q K b h q k hkq
    rw [h1] at h0
    exact absurd h0 (not_le.mpr (EReal.bot_lt_coe r))

include hQ hK in
/-- A shifted exponential is a nonnegative real, positive at a key not after the query. -/
theorem pexpG_real (b : Fin 2) (h : Fin 12) (q k : Fin 2048) :
    ∃ p : ℝ, 0 ≤ p ∧ (k.val ≤ q.val → 0 < p) ∧ pexpG Q K b h q k = (p : EReal) := by
  obtain ⟨M, hM⟩ := rowMaxG_real Q K hQ hK b h q
  by_cases hkq : k.val ≤ q.val
  · obtain ⟨r, hr⟩ := scoreG_of_le Q K hQ hK b h q k hkq
    refine ⟨Real.exp (r - M), (Real.exp_pos _).le, fun _ => Real.exp_pos _, ?_⟩
    rw [pexpG, hr, hM, ← EReal.coe_sub, Ideal.exp_coe]
  · refine ⟨0, le_rfl, fun h' => absurd h' hkq, ?_⟩
    rw [pexpG, scoreG_of_not_le Q K b h q k hkq, EReal.bot_sub, Ideal.exp_bot, EReal.coe_zero]

include hQ hK hV in
/-- One division of the weighted sum equals the sum of the divided weights. -/
theorem headKG_eq_headRG (b : Fin 2) (h : Fin 12) (q : Fin 2048) (d : Fin 64) :
    headKG Q K V b h q d = headRG Q K V b h q d := by
  choose pr hp0 hppos hpr using fun k => pexpG_real Q K hQ hK b h q k
  choose vr hvr using fun k => hV b k (col h d)
  obtain ⟨L, hLdef⟩ : ∃ L : ℝ, L = ∑ k, pr k := ⟨_, rfl⟩
  have hL : denomG Q K b h q = (L : EReal) := by
    rw [denomG, hLdef, ← coe_sum]
    exact Finset.sum_congr rfl fun k _ => hpr k
  have hLpos : 0 < L := by
    rw [hLdef]
    exact Finset.sum_pos' (fun k _ => hp0 k) ⟨0, Finset.mem_univ _, hppos 0 (Nat.zero_le _)⟩
  have hLne : L ≠ 0 := hLpos.ne'
  have hKK : headKG Q K V b h q d = (((∑ k, pr k * vr k) * (1 / L) : ℝ) : EReal) := by
    have h1 : ∑ k, pexpG Q K b h q k * V b k (col h d) = ((∑ k, pr k * vr k : ℝ) : EReal) := by
      rw [← coe_sum]
      refine Finset.sum_congr rfl fun k _ => ?_
      rw [hpr, hvr, EReal.coe_mul]
    rw [headKG, hL, Ideal.div_coe hLne, h1, ← EReal.coe_mul]
  have hRR : headRG Q K V b h q d = ((∑ k, pr k * (1 / L) * vr k : ℝ) : EReal) := by
    rw [headRG, hL, ← coe_sum]
    refine Finset.sum_congr rfl fun k _ => ?_
    rw [Ideal.div_coe hLne, hpr, hvr, ← EReal.coe_mul, ← EReal.coe_mul]
  rw [hKK, hRR, Finset.sum_mul]
  refine congrArg _ (Finset.sum_congr rfl fun k _ => ?_)
  exact mul_right_comm _ _ _

end

/-- The two forms of the whole computation agree on real inputs (nothing is asked of the output weight). -/
theorem outK_eq_outR (x : Cert.Spec.Act) (wq wk wv wo : Cert.Spec.Wt)
    (hx : ∀ i, ∃ r : ℝ, x i = (r : EReal)) (hq : ∀ i, ∃ r : ℝ, wq i = (r : EReal)) (hk : ∀ i, ∃ r : ℝ, wk i = (r : EReal))
    (hv : ∀ i, ∃ r : ℝ, wv i = (r : EReal)) :
    Cert.Spec.outK x wq wk wv wo = Cert.Spec.outR x wq wk wv wo := by
  funext j
  show ∑ i : Fin 768, attnKG (proj x wq) (proj x wk) (proj x wv) (j 0) (j 1) i * wo (ix2 (j 2) i)
    = ∑ i : Fin 768, attnRG (proj x wq) (proj x wk) (proj x wv) (j 0) (j 1) i * wo (ix2 (j 2) i)
  refine Finset.sum_congr rfl fun i _ => ?_
  exact congrArg (fun t => t * wo (ix2 (j 2) i))
    (headKG_eq_headRG (proj x wq) (proj x wk) (proj x wv) (proj_real x wq hx hq) (proj_real x wk hx hk)
      (proj_real x wv hx hv) (j 0) (headOf i) (j 1) (featOf i))

end Cert.Law
-- ==== Proof.Finite.lean ====
import proofs.«423483_j75299366633636_3_alg».proof.Pre_finite_inputs
import proofs.«423483_j75299366633636_3_alg».proof.Proof.Gen.Pre_finite_inputs
import Idealize.ShloMosaic.Lib.ReduceAll
import Idealize.ShloMosaic.Lib.ValueIdx
import Idealize.ShloMosaic.PureOps.Ideal

/-! The precondition read back: when the conjunction of the five tests "every entry has absolute value below plus
infinity" holds, every entry of every argument array is a real number. -/

noncomputable section

namespace Cert.Finite

open Idealize.ShloMosaic Idealize.ShloMosaic.ValueIdx

/-- The scalar shape has exactly one index. -/
instance : Subsingleton Cert.Pre_finite_inputs.S_.Idx := ⟨fun a b => funext fun d => d.elim0⟩

/-- The word 0x7F800000 denotes plus infinity. -/
theorem inf_word : Ideal.ofBits .f32 0x7F800000#32 = (⊤ : EReal) := by
  simp [Ideal.ofBits, Ideal.ieee]

/-- An extended real whose absolute value (the larger of it and its negation) lies below plus infinity is a real:
minus infinity has absolute value plus infinity, and so does plus infinity. -/
theorem real_of_abs_lt_top (x : EReal) (h : max x (-x) < ⊤) : ∃ r : ℝ, x = (r : EReal) := by
  induction x using EReal.rec with
  | bot => simp at h
  | coe r => exact ⟨r, rfl⟩
  | top => simp at h

/-- One test read back at every index: if all entries of an array pass "absolute value below plus infinity", each
entry is a real. -/
theorem real_of_all {s : Shape} {axes : List (Fin s.rank)} (a : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) (φ := .f32) .olt (Host.absf (F := Ideal) (φ := .f32) a)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, a i = (r : EReal) := by
  intro i
  have hi := Host.reduce_andi_all _ _ hr hu ix0 e i
  -- at index i the test compares the larger of the entry and its negation with the constant
  have hi' : Ideal.cmp .olt (max (a i) (-(a i))) (Ideal.ofBits .f32 0x7F800000#32) = 1#1 := hi
  rw [inf_word] at hi'
  simp only [Ideal.cmp] at hi'
  apply real_of_abs_lt_top
  by_contra hn
  rw [decide_eq_false hn] at hi'
  exact absurd hi' (by decide)

/-- The precondition gives: every entry of every argument is a real. -/
theorem real_of_pre [Cert.Pre_finite_inputs.Facts]
    (a0 : (⟨3, ![2, 2048, 768]⟩ : Shape).Idx → EReal) (a1 a2 a3 a4 : (⟨2, ![768, 768]⟩ : Shape).Idx → EReal)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  -- the result is the conjunction of the five tests, nested to the left
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4⟩

end Cert.Finite

end
-- ==== Proof.KIGlue.lean ====
import proofs.«423483_j75299366633636_3_alg».proof.Proof.KIValue0
import proofs.«423483_j75299366633636_3_alg».proof.Proof.KIValue1
import proofs.«423483_j75299366633636_3_alg».proof.Proof.Law
import proofs.«423483_j75299366633636_3_alg».proof.Proof.Finite

/-! The result array of the idealized kernel as one function of the five arguments. The attention region reads the
query-key-value array the projection region wrote: its three column bands are the three projections of the
activations, and the weight it multiplies by is the transposed output weight. So the result is the attention of the
three projections in the "divide once" form; under finite inputs that equals the "divide every weight" form. -/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The query band of the array the attention region enters with is the query projection. -/
theorem Qf_eq : Qf (Vr2 m) c = Cert.Spec.proj (x m c) (wq m c) := by
  funext b s i
  exact (congrFun (W2_v5 m c) _).trans (qkv_q m c b s i)

theorem Kf_eq : Kf (Vr2 m) c = Cert.Spec.proj (x m c) (wk m c) := by
  funext b s i
  exact (congrFun (W2_v5 m c) _).trans (qkv_k m c b s i)

theorem Vf_eq : Vf (Vr2 m) c = Cert.Spec.proj (x m c) (wv m c) := by
  funext b s i
  exact (congrFun (W2_v5 m c) _).trans (qkv_v m c b s i)

/-- The weight the attention region multiplies by is the output weight transposed. -/
theorem Wp_apply (i j : Fin 768) : Wp (Vr2 m) c (ix2 i j) = wo m c (ix2 j i) :=
  (congrFun (W2_of_ne m c main_v4 (by decide)) _).trans (w4_apply m c i j)

/-- The result's closed form at an index, in the "divide once" form. -/
theorem G1_eq_outK (j : S2x2048x768.Idx) :
    G1 (Vr2 m) c j = Cert.Spec.outK (x m c) (wq m c) (wk m c) (wv m c) (wo m c) j := by
  show (∑ i : Fin 768, Cert.Spec.attnKG (Qf (Vr2 m) c) (Kf (Vr2 m) c) (Vf (Vr2 m) c) (j 0) (j 1) i * Wp (Vr2 m) c (ix2 i (j 2)) : EReal)
    = ∑ i : Fin 768, Cert.Spec.attnKG (Cert.Spec.proj (x m c) (wq m c)) (Cert.Spec.proj (x m c) (wk m c)) (Cert.Spec.proj (x m c) (wv m c)) (j 0) (j 1) i
        * wo m c (ix2 (j 2) i)
  rw [Qf_eq, Kf_eq, Vf_eq]
  refine Finset.sum_congr rfl fun i _ => ?_
  exact congrArg (fun t => Cert.Spec.attnKG (Cert.Spec.proj (x m c) (wq m c)) (Cert.Spec.proj (x m c) (wk m c)) (Cert.Spec.proj (x m c) (wv m c)) (j 0) (j 1) i * t)
    (Wp_apply m c i (j 2))

/-- The result in the "divide once" form. -/
theorem res_eq_outK : res m c = Cert.Spec.outK (x m c) (wq m c) (wk m c) (wv m c) (wo m c) := by
  funext j
  exact (congrFun (res1_eq (Vr2 m) c) j).trans (G1_eq_outK m c j)

/-- Under finite inputs, the result in the "divide every weight" form. -/
theorem res_eq_outR [Cert.Pre_finite_inputs.Facts]
    (hpre : Cert.Pre_finite_inputs.fn (F := Ideal) (x m c) (wq m c) (wk m c) (wv m c) (wo m c) = (fun _ => 1#1)) :
    res m c = Cert.Spec.outR (x m c) (wq m c) (wk m c) (wv m c) (wo m c) := by
  obtain ⟨h0, h1, h2, h3, -⟩ := Cert.Finite.real_of_pre (x m c) (wq m c) (wk m c) (wv m c) (wo m c) hpre
  rw [res_eq_outK, Cert.Law.outK_eq_outR _ _ _ _ _ h0 h1 h2 h3]

end Cert.KernelIdeal.Hand

end
-- ==== Proof.RefValue.lean ====
import proofs.«423483_j75299366633636_3_alg».proof.Proof.Gen.ReferenceIdeal.Run
import proofs.«423483_j75299366633636_3_alg».proof.Proof.Gen.ReferenceIdeal.Read
import proofs.«423483_j75299366633636_3_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StableHlo.Predicate

/-! The reference program's result, read index by index, is the attention with every weight divided first followed
by the output projection (`Cert.Spec.outR`): the three projections, the split into heads, the scaled scores, the
causal mask, the row maximum, the shifted exponentials, their sum, the quotient, the weighted sum of the values,
the heads side by side again and the output projection, one stage at a time. -/

noncomputable section

namespace Cert.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Read

/-- An array of activations. -/
abbrev A3 : Type := (⟨S2x2048x768, .f32⟩ : BufTy).Contents (Elt Ideal)
/-- A weight matrix. -/
abbrev W2 : Type := (⟨S768x768, .f32⟩ : BufTy).Contents (Elt Ideal)

/-! ## The projections and the split into heads -/

/-- A projection at `(b, s, o)`. -/
theorem v0_at (x : A3) (w : W2) (b : Fin 2) (s : Fin 2048) (o : Fin 768) :
    val_main_v0 (F := Ideal) x w (ix3 b s o) = Cert.Spec.proj x w b s o := by
  rw [val_main_v0_apply]
  unfold Cert.Spec.proj
  refine Finset.sum_congr rfl fun d _ => ?_
  have el : lidx_main_v0 (ix3 b s o) d = ix3 b s d := by
    funext a; match a with | ⟨0, _⟩ => rfl | ⟨1, _⟩ => rfl | ⟨2, _⟩ => rfl
  have er : ridx_main_v0 (ix3 b s o) d = ix2 o d := by
    funext a; match a with | ⟨0, _⟩ => rfl | ⟨1, _⟩ => rfl
  rw [el, er]

/-- Head `h`'s feature `d` of a projection, after the reshape and the transposition, is its feature `h * 64 + d`. -/
theorem v2_at (x : A3) (w : W2) (b : Fin 2) (h : Fin 12) (s : Fin 2048) (d : Fin 64) :
    val_main_v2 (F := Ideal) x w (ix4 b h s d) = Cert.Spec.proj x w b s (Cert.Spec.col h d) := by
  rw [val_main_v2_apply, val_main_v1_apply]
  have e : idx_main_v1 (idx_main_v2 (ix4 b h s d)) = ix3 b s (Cert.Spec.col h d) := by
    have hb := b.isLt; have hh := h.isLt; have hs := s.isLt; have hd := d.isLt
    funext a; apply Fin.ext
    match a with
    | ⟨0, _⟩ => show (((b.val * 2048 + s.val) * 12 + h.val) * 64 + d.val) / 1572864 = b.val; omega
    | ⟨1, _⟩ => show (((b.val * 2048 + s.val) * 12 + h.val) * 64 + d.val) / 768 % 2048 = s.val; omega
    | ⟨2, _⟩ => show (((b.val * 2048 + s.val) * 12 + h.val) * 64 + d.val) % 768 = h.val * 64 + d.val; omega
  rw [e, v0_at]

theorem v5_at (x : A3) (w : W2) (b : Fin 2) (h : Fin 12) (s : Fin 2048) (d : Fin 64) :
    val_main_v5 (F := Ideal) x w (ix4 b h s d) = Cert.Spec.proj x w b s (Cert.Spec.col h d) := v2_at x w b h s d

theorem v8_at (x : A3) (w : W2) (b : Fin 2) (h : Fin 12) (s : Fin 2048) (d : Fin 64) :
    val_main_v8 (F := Ideal) x w (ix4 b h s d) = Cert.Spec.proj x w b s (Cert.Spec.col h d) := v2_at x w b h s d

/-! ## The scaled scores -/

/-- The contraction over a head's 64 features. -/
theorem v9_at (x : A3) (wq wk : W2) (b : Fin 2) (h : Fin 12) (q k : Fin 2048) :
    val_main_v9 (F := Ideal) x wq wk (ix4 b h q k)
      = Cert.Spec.dotG (Cert.Spec.proj x wq) (Cert.Spec.proj x wk) b h q k := by
  rw [val_main_v9_apply]
  unfold Cert.Spec.dotG
  refine Finset.sum_congr rfl fun d _ => ?_
  have el : lidx_main_v9 (ix4 b h q k) d = ix4 b h q d := by
    funext a; match a with | ⟨0, _⟩ => rfl | ⟨1, _⟩ => rfl | ⟨2, _⟩ => rfl | ⟨3, _⟩ => rfl
  have er : ridx_main_v9 (ix4 b h q k) d = ix4 b h k d := by
    funext a; match a with | ⟨0, _⟩ => rfl | ⟨1, _⟩ => rfl | ⟨2, _⟩ => rfl | ⟨3, _⟩ => rfl
  rw [el, er, v2_at, v5_at]

/-- The pattern of `64.0` denotes the real 64. -/
theorem ofBits_64 : Ideal.ofBits .f32 0x42800000#32 = ((64 : ℝ) : EReal) := by
  simp [Ideal.ofBits, Ideal.ieee, -EReal.coe_mul]; norm_num

/-- The pattern of minus infinity denotes `⊥`. -/
theorem ofBits_neg_inf : Ideal.ofBits .f32 0xFF800000#32 = ⊥ := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  have : Real.sqrt 64 = 8 := by
    rw [show (64 : ℝ) = 8 * 8 by norm_num]; exact Real.sqrt_mul_self (by norm_num)
  rw [this]

/-- The quotient by the square root of 64 is the product with one eighth. -/
theorem v12_at (x : A3) (wq wk : W2) (b : Fin 2) (h : Fin 12) (q k : Fin 2048) :
    val_main_v12 (F := Ideal) x wq wk (ix4 b h q k)
      = Cert.Spec.dotG (Cert.Spec.proj x wq) (Cert.Spec.proj x wk) b h q k * Cert.Spec.eighth := by
  rw [val_main_v12_apply, val_main_v11_apply, val_main_v10_apply, val_main_cst_apply, v9_at,
    Ideal.hostDivf_def, Ideal.hostUnary_sqrt_def, Ideal.ofBits_def, ofBits_64, sqrt_64,
    Ideal.div_coe (by norm_num : (8 : ℝ) ≠ 0)]
  rfl

/-! ## The causal mask -/

/-- A position, as a 32-bit word, reads back as itself. -/
theorem toNat_ofNat_pos (n : Nat) (hn : n < 2048) : (BitVec.ofNat 32 n).toNat = n := by
  rw [BitVec.toNat_ofNat]; exact Nat.mod_eq_of_lt (by omega)

/-- The lower-triangular mask at `(q, k)` is set exactly when the key is not after the query. -/
theorem v14_at (q k : Fin 2048) :
    val_main_v14 (F := Ideal) (ix2 q k) = if k.val ≤ q.val then 1#1 else 0#1 := by
  rw [val_main_v14_apply, val_main_call0_v4_apply, val_main_call0_v2_apply, val_main_call0_v0_apply,
    val_main_call0_v1_apply, val_main_call0_c_apply, val_main_call0_v3_apply, val_main_v13_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  have hq := q.isLt
  have hk := k.isLt
  have ha : IntOp.addi (BitVec.ofNat 32 q.val) 0#32 = BitVec.ofNat 32 q.val := by
    unfold IntOp.addi; exact BitVec.add_zero _
  rw [ha]
  have hiff := Predicate.sge_iff_toNat (a := BitVec.ofNat 32 q.val) (b := BitVec.ofNat 32 k.val)
    (by rw [toNat_ofNat_pos _ hq]; omega) (by rw [toNat_ofNat_pos _ hk]; omega)
  rw [toNat_ofNat_pos _ hq, toNat_ofNat_pos _ hk] at hiff
  by_cases hc : k.val ≤ q.val
  · rw [if_pos hc, hiff.mpr hc, select_one]
  · rw [if_neg hc, eq_zero_of_ne_one (fun h1 => hc (hiff.mp h1)), select_zero]

/-- The masked, scaled score. -/
theorem v15_at (x : A3) (wq wk : W2) (b : Fin 2) (h : Fin 12) (q k : Fin 2048) :
    val_main_v15 (F := Ideal) x wq wk (ix4 b h q k)
      = Cert.Spec.scoreG (Cert.Spec.proj x wq) (Cert.Spec.proj x wk) b h q k := by
  rw [val_main_v15_apply, val_main_call1_v1_apply, val_main_call1_v2_apply, val_main_call1_v0_apply,
    val_main_cst_0_apply, v12_at]
  have e : idx_main_call1_v1 (ix4 b h q k) = ix2 q k := by
    funext a; match a with | ⟨0, _⟩ => rfl | ⟨1, _⟩ => rfl
  rw [e, v14_at, Ideal.ofBits_def, ofBits_neg_inf]
  unfold Cert.Spec.scoreG
  by_cases hc : k.val ≤ q.val
  · rw [if_pos hc, if_pos hc, select_one]
  · rw [if_neg hc, if_neg hc, select_zero]

/-! ## The row maximum -/

theorem reduces3 : S2x12x2048x2048.Reduces [3] S2x12x2048 := by decide

/-- The row `(b, h, q)` with the key position `k` put back. -/
theorem lift_ix3 (b : Fin 2) (h : Fin 12) (q : Fin 2048) (k : Fin (S2x12x2048x2048.size 3)) :
    reduces3.lift (ix3 b h q) k = ix4 b h q (⟨k.val, k.isLt⟩ : Fin 2048) := by
  funext c; apply Fin.ext
  fin_cases c <;> rfl

/-- A fold of the maximum from `⊥` is the supremum. -/
theorem fold_max_bot {ι : Type} (s : Finset ι) (f : ι → EReal) :
    s.fold (FloatOps.maximumf (F := Ideal) (φ := .f32)) (⊥ : EReal) f = s.sup f := by
  classical
  induction s using Finset.induction_on with
  | empty => simp
  | insert a s ha ih => rw [Finset.fold_insert ha, Finset.sup_insert, ih]; rfl

/-- The reduction by the maximum over the key positions is the largest score of the row. -/
theorem v16_at (x : A3) (wq wk : W2) (b : Fin 2) (h : Fin 12) (q : Fin 2048) :
    val_main_v16 (F := Ideal) x wq wk (ix3 b h q)
      = Cert.Spec.rowMaxG (Cert.Spec.proj x wq) (Cert.Spec.proj x wk) b h q := by
  unfold val_main_v16
  rw [Host.reduce_eq_fold_single FloatOps.maximumf _ _ reducesTo_S2x12x2048x2048_S2x12x2048_d3 reduces3 h_S_]
  have hf : (val_main_v15 (F := Ideal) x wq wk ∘ reduces3.lift (ix3 b h q))
      = fun k : Fin 2048 => Cert.Spec.scoreG (Cert.Spec.proj x wq) (Cert.Spec.proj x wk) b h q k :=
    funext fun k => by
      show val_main_v15 (F := Ideal) x wq wk (reduces3.lift (ix3 b h q) k) = _
      rw [lift_ix3, v15_at]
      rfl
  rw [hf, val_main_cst_1_apply, Ideal.ofBits_def, ofBits_neg_inf]
  exact fold_max_bot _ _

/-- The maximum with minus infinity changes nothing. -/
theorem v18_at (x : A3) (wq wk : W2) (b : Fin 2) (h : Fin 12) (q : Fin 2048) :
    val_main_v18 (F := Ideal) x wq wk (ix3 b h q)
      = Cert.Spec.rowMaxG (Cert.Spec.proj x wq) (Cert.Spec.proj x wk) b h q := by
  rw [val_main_v18_apply, val_main_v17_apply, val_main_cst_2_apply, v16_at, Ideal.maximumf_def, Ideal.ofBits_def,
    ofBits_neg_inf]
  exact max_bot_left _

/-- The row maximum broadcast back over the key positions. -/
theorem v20_at (x : A3) (wq wk : W2) (b : Fin 2) (h : Fin 12) (q k : Fin 2048) :
    val_main_v20 (F := Ideal) x wq wk (ix4 b h q k)
      = Cert.Spec.rowMaxG (Cert.Spec.proj x wq) (Cert.Spec.proj x wk) b h q := by
  rw [val_main_v20_apply, val_main_v19_apply]
  have e : idx_main_v19 (idx_main_v20 (ix4 b h q k)) = ix3 b h q := by
    funext a; match a with | ⟨0, _⟩ => rfl | ⟨1, _⟩ => rfl | ⟨2, _⟩ => rfl
  rw [e, v18_at]

/-! ## The shifted exponentials, their sum, and the weights -/

/-- The shifted exponential of a score. -/
theorem v22_at (x : A3) (wq wk : W2) (b : Fin 2) (h : Fin 12) (q k : Fin 2048) :
    val_main_v22 (F := Ideal) x wq wk (ix4 b h q k)
      = Cert.Spec.pexpG (Cert.Spec.proj x wq) (Cert.Spec.proj x wk) b h q k := by
  rw [val_main_v22_apply, val_main_v21_apply, v15_at, v20_at, Ideal.hostUnary_exp_def, Ideal.subf_def]
  rfl

/-- The sum of a row's shifted exponentials, from zero. -/
theorem v23_at (x : A3) (wq wk : W2) (b : Fin 2) (h : Fin 12) (q : Fin 2048) :
    val_main_v23 (F := Ideal) x wq wk (ix3 b h q)
      = Cert.Spec.denomG (Cert.Spec.proj x wq) (Cert.Spec.proj x wk) b h q := by
  rw [val_main_v23_apply, val_main_cst_3_apply, Ideal.ofBits_def, Ideal.ofBits_zero_f32, zero_add]
  unfold Cert.Spec.denomG
  refine Finset.sum_congr rfl fun k _ => ?_
  have e : idx_main_v23 (ix3 b h q) k = ix4 b h q k := by
    funext a; match a with | ⟨0, _⟩ => rfl | ⟨1, _⟩ => rfl | ⟨2, _⟩ => rfl | ⟨3, _⟩ => rfl
  rw [e, v22_at]

/-- The sum broadcast back over the key positions. -/
theorem v25_at (x : A3) (wq wk : W2) (b : Fin 2) (h : Fin 12) (q k : Fin 2048) :
    val_main_v25 (F := Ideal) x wq wk (ix4 b h q k)
      = Cert.Spec.denomG (Cert.Spec.proj x wq) (Cert.Spec.proj x wk) b h q := by
  rw [val_main_v25_apply, val_main_v24_apply]
  have e : idx_main_v24 (idx_main_v25 (ix4 b h q k)) = ix3 b h q := by
    funext a; match a with | ⟨0, _⟩ => rfl | ⟨1, _⟩ => rfl | ⟨2, _⟩ => rfl
  rw [e, v23_at]

/-- A weight: the shifted exponential divided by the row's sum. -/
theorem v26_at (x : A3) (wq wk : W2) (b : Fin 2) (h : Fin 12) (q k : Fin 2048) :
    val_main_v26 (F := Ideal) x wq wk (ix4 b h q k)
      = Ideal.div (Cert.Spec.pexpG (Cert.Spec.proj x wq) (Cert.Spec.proj x wk) b h q k)
          (Cert.Spec.denomG (Cert.Spec.proj x wq) (Cert.Spec.proj x wk) b h q) := by
  rw [val_main_v26_apply, v22_at, v25_at, Ideal.hostDivf_def]

/-! ## The weighted sum of the values, the heads side by side, and the output projection -/

/-- A head's output. -/
theorem v27_at (x : A3) (wq wk wv : W2) (b : Fin 2) (h : Fin 12) (q : Fin 2048) (d : Fin 64) :
    val_main_v27 (F := Ideal) x wq wk wv (ix4 b h q d)
      = Cert.Spec.headRG (Cert.Spec.proj x wq) (Cert.Spec.proj x wk) (Cert.Spec.proj x wv) b h q d := by
  rw [val_main_v27_apply]
  unfold Cert.Spec.headRG
  refine Finset.sum_congr rfl fun k _ => ?_
  have el : lidx_main_v27 (ix4 b h q d) k = ix4 b h q k := by
    funext a; match a with | ⟨0, _⟩ => rfl | ⟨1, _⟩ => rfl | ⟨2, _⟩ => rfl | ⟨3, _⟩ => rfl
  have er : ridx_main_v27 (ix4 b h q d) k = ix4 b h k d := by
    funext a; match a with | ⟨0, _⟩ => rfl | ⟨1, _⟩ => rfl | ⟨2, _⟩ => rfl | ⟨3, _⟩ => rfl
  rw [el, er, v26_at, v8_at]

/-- Feature `i` of the concatenated heads is feature `i % 64` of head `i / 64`. -/
theorem v29_at (x : A3) (wq wk wv : W2) (b : Fin 2) (s : Fin 2048) (i : Fin 768) :
    val_main_v29 (F := Ideal) x wq wk wv (ix3 b s i)
      = Cert.Spec.attnRG (Cert.Spec.proj x wq) (Cert.Spec.proj x wk) (Cert.Spec.proj x wv) b s i := by
  rw [val_main_v29_apply, val_main_v28_apply]
  have e : idx_main_v28 (idx_main_v29 (ix3 b s i)) = ix4 b (Cert.Spec.headOf i) s (Cert.Spec.featOf i) := by
    have hb := b.isLt; have hs := s.isLt; have hi := i.isLt
    funext a; apply Fin.ext
    match a with
    | ⟨0, _⟩ => show ((b.val * 2048 + s.val) * 768 + i.val) / 1572864 = b.val; omega
    | ⟨1, _⟩ => show ((b.val * 2048 + s.val) * 768 + i.val) / 64 % 12 = i.val / 64; omega
    | ⟨2, _⟩ => show ((b.val * 2048 + s.val) * 768 + i.val) / 768 % 2048 = s.val; omega
    | ⟨3, _⟩ => show ((b.val * 2048 + s.val) * 768 + i.val) % 64 = i.val % 64; omega
  rw [e, v27_at]
  rfl

/-- The reference's result, as a function of the five argument arrays, is the attention with every weight divided
    first, followed by the output projection. -/
theorem ref_val (x0 : (⟨S2x2048x768, .f32⟩ : BufTy).Contents (Elt Ideal)) (x1 x2 x3 x4 : (⟨S768x768, .f32⟩ : BufTy).Contents (Elt Ideal)) :
    val_main_v30 (F := Ideal) x0 x1 x2 x3 x4 = Cert.Spec.outR x0 x1 x2 x3 x4 := by
  funext j
  obtain ⟨b, s, o, rfl⟩ : ∃ (b : Fin 2) (s : Fin 2048) (o : Fin 768), j = ix3 b s o :=
    ⟨j 0, j 1, j 2, eq_ix3 (n0 := 2) (n1 := 2048) (n2 := 768) j⟩
  rw [val_main_v30_apply]
  unfold Cert.Spec.outR
  refine Finset.sum_congr rfl fun i _ => ?_
  have el : lidx_main_v30 (ix3 b s o) i = ix3 b s i := by
    funext a; match a with | ⟨0, _⟩ => rfl | ⟨1, _⟩ => rfl | ⟨2, _⟩ => rfl
  have er : ridx_main_v30 (ix3 b s o) i = ix2 o i := by
    funext a; match a with | ⟨0, _⟩ => rfl | ⟨1, _⟩ => rfl
  rw [el, er, v29_at]

/-- Every weakly fair execution of the reference terminates with its result that function of the arguments, the
    arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v30)
            = Cert.Spec.outR (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  refine (θ_run (Cert.ReferenceIdeal.defs (F := Ideal)) _ _).mono (fun _ h c => ⟨(h c).1.trans ?_, (h c).2⟩)
    (Cert.ReferenceIdeal.Value.run (F := Ideal) m' ρ')
  rw [val_main_v30_eq]
  exact ref_val _ _ _ _ _

end Cert.RefValue

end
-- ==== Proof.Preserves.lean ====
import proofs.«423483_j75299366633636_3_alg».proof.Defs
import Idealize.ShloMosaic.PureOps.IdealRules

/-! The idealized kernel differs from the kernel only in the twelve occurrences of the causal mask's fill value, a large
negative finite number, which the table of named constants reads as minus infinity. Each occurrence is one application
of the same rule: the table gives the name "neg_big" the value minus infinity. -/

noncomputable section

namespace Cert.Preserves

open Idealize.ShloMosaic

/-- One occurrence: the table's entry for the mask fill is minus infinity. -/
theorem neg_big : IdealRules.named_const.Statement Cert.KernelIdeal.κ "neg_big" .f32 0xFF333332#32 ⊥ :=
  IdealRules.named_const.statement Cert.KernelIdeal.κ "neg_big" .f32 0xFF333332#32 ⊥ rfl

/-- All twelve occurrences, in order. -/
theorem preserves : Cert.preserves_Kernel_KernelIdeal :=
  ⟨neg_big, neg_big, neg_big, neg_big, neg_big, neg_big, neg_big, neg_big, neg_big, neg_big, neg_big, neg_big⟩

end Cert.Preserves

end
-- ==== Proof.lean ====
import proofs.«423483_j75299366633636_3_alg».proof.Defs
import proofs.«423483_j75299366633636_3_alg».proof.Proof.Gen.Kernel
import proofs.«423483_j75299366633636_3_alg».proof.Proof.Gen.KernelIdeal
import proofs.«423483_j75299366633636_3_alg».proof.Proof.Gen.ReferenceIdeal
import proofs.«423483_j75299366633636_3_alg».proof.Proof.Gen.Pre_finite_inputs
import proofs.«423483_j75299366633636_3_alg».proof.Proof.KBRun
import proofs.«423483_j75299366633636_3_alg».proof.Proof.KIRun
import proofs.«423483_j75299366633636_3_alg».proof.Proof.KIGlue
import proofs.«423483_j75299366633636_3_alg».proof.Proof.RefValue
import proofs.«423483_j75299366633636_3_alg».proof.Proof.Preserves
import Idealize.ShloMosaic.Adequacy
import Idealize.ShloMosaic.Init

/-! Causal twelve-head self-attention with query, key, value and output projections: the kernel program (a
projection kernel, then an attention kernel that also applies the output weight) against the plain reference.

Both kernel programs — as printed, and idealized — run to the end from any memory and leave their five arguments
unchanged: the run is three segments, the host operations that lay out the weights, the projection region and the
attention region, whose query, key and value windows are three column bands of one array. The reference runs as a
straight line of host operations.

Over the extended reals the two idealized programs compute the same array. Both form, per batch, head and query
row, the scores `q·k / 8` under the causal mask (minus infinity after the query's position; the kernel's finite
stand-in is named minus infinity), subtract the row maximum, exponentiate and sum. The kernel then divides the
weighted sum of the values once by that sum, the reference divides every weight first. With finite inputs the
scores are reals or minus infinity, the row maximum is a real (key 0 is never masked), the weights are reals in
`[0, 1]` with a positive one at key 0, so the sum is a positive real and the two divisions agree by distributivity
in the reals. The output projection is then the same sum on both sides. -/

noncomputable section

namespace Cert.Proof

open Idealize.ShloMosaic Idealize.SL.Sem

/-- The kernel's result, under the precondition and from memories agreeing on the arguments, is the reference's
    function of the reference's arguments. -/
theorem res_agree [Cert.Pre_finite_inputs.Facts] [Cert.KernelIdeal.Facts] [Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Hand.res m c
      = Cert.Spec.outR (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  rw [h0, h1, h2, h3, h4]
  exact Cert.KernelIdeal.Hand.res_eq_outR m c hpre

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run (Cert.ReferenceIdeal.defs (F := Ideal)) _ _).mono (fun _ h c => (h c).2) (Cert.RefValue.ref_run m ρ),
  Cert.Preserves.preserves,
  fun m ρ m' ρ' hpre hagree =>
    ⟨fun c => Cert.Spec.outR (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)),
      (θ_run (Cert.KernelIdeal.defs (F := Ideal)) _ _).mono
        (fun _ h c => ⟨(h c).1.trans (res_agree m m' c (hpre c) (hagree c).1 (hagree c).2.1 (hagree c).2.2.1 (hagree c).2.2.2.1 (hagree c).2.2.2.2), (h c).2⟩)
        (Cert.KernelIdeal.Hand.run_main m ρ),
      Cert.RefValue.ref_run m' ρ'⟩⟩

end Cert.Proof

end
